-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x100 : Shape := ⟨2, ![1000000, 100]⟩
abbrev S100x256 : Shape := ⟨2, ![100, 256]⟩
abbrev S256 : Shape := ⟨1, ![256]⟩
abbrev S256x47 : Shape := ⟨2, ![256, 47]⟩
abbrev S47 : Shape := ⟨1, ![47]⟩
abbrev S1024000 : Shape := ⟨1, ![1024000]⟩
abbrev S40960 : Shape := ⟨1, ![40960]⟩
abbrev S_ : Shape := ⟨0, ![]⟩

class Facts : Prop where
  bcast_S_S1000000x100 : S_.BroadcastsInDim S1000000x100 (![] : Fin 0 → Fin S1000000x100.rank)
  reducesTo_S1000000x100_S_d0_1 : S1000000x100.ReducesTo [0, 1] S_
  h_S_ : 0 < S_.numel
  bcast_S_S100x256 : S_.BroadcastsInDim S100x256 (![] : Fin 0 → Fin S100x256.rank)
  reducesTo_S100x256_S_d0_1 : S100x256.ReducesTo [0, 1] S_
  bcast_S_S256 : S_.BroadcastsInDim S256 (![] : Fin 0 → Fin S256.rank)
  reducesTo_S256_S_d0 : S256.ReducesTo [0] S_
  bcast_S_S256x47 : S_.BroadcastsInDim S256x47 (![] : Fin 0 → Fin S256x47.rank)
  reducesTo_S256x47_S_d0_1 : S256x47.ReducesTo [0, 1] S_
  bcast_S_S47 : S_.BroadcastsInDim S47 (![] : Fin 0 → Fin S47.rank)
  reducesTo_S47_S_d0 : S47.ReducesTo [0] S_

variable [Facts]

def fn_part1 {F : FTy → Type} [FloatOps F] (main_arg4 : FVec F S256x47 .f32) (main_arg5 : FVec F S47 .f32) (main_arg6 : FVec F S256x47 .f32) (main_v13 : IVec S_ 1) (main_v16 : IVec S100x256 1) : IVec S_ 1 :=
  let main_c_5 : IVec S_ 1 := constantI S_ 1 1#1
  let main_v17 : IVec S_ 1 := (fun x v => Host.reduce IntOp.andi x v reducesTo_S100x256_S_d0_1 h_S_) main_v16 main_c_5
  let main_v18 : IVec S_ 1 := andi main_v13 main_v17
  let main_v19 : FVec F S256x47 .f32 := Host.absf main_arg4
  let main_cst_6 : FVec F S_ .f32 := constant S_ .f32 0x7F800000#32
  let main_v20 : FVec F S256x47 .f32 := broadcastInDim S256x47 ![] bcast_S_S256x47 main_cst_6
  let main_v21 : IVec S256x47 1 := cmpf .olt main_v19 main_v20
  let main_c_7 : IVec S_ 1 := constantI S_ 1 1#1
  let main_v22 : IVec S_ 1 := (fun x v => Host.reduce IntOp.andi x v reducesTo_S256x47_S_d0_1 h_S_) main_v21 main_c_7
  let main_v23 : IVec S_ 1 := andi main_v18 main_v22
  let main_v24 : FVec F S47 .f32 := Host.absf main_arg5
  let main_cst_8 : FVec F S_ .f32 := constant S_ .f32 0x7F800000#32
  let main_v25 : FVec F S47 .f32 := broadcastInDim S47 ![] bcast_S_S47 main_cst_8
  let main_v26 : IVec S47 1 := cmpf .olt main_v24 main_v25
  let main_c_9 : IVec S_ 1 := constantI S_ 1 1#1
  let main_v27 : IVec S_ 1 := (fun x v => Host.reduce IntOp.andi x v reducesTo_S47_S_d0 h_S_) main_v26 main_c_9
  let main_v28 : IVec S_ 1 := andi main_v23 main_v27
  let main_v29 : FVec F S256x47 .f32 := Host.absf main_arg6
  let main_cst_10 : FVec F S_ .f32 := constant S_ .f32 0x7F800000#32
  let main_v30 : FVec F S256x47 .f32 := broadcastInDim S256x47 ![] bcast_S_S256x47 main_cst_10
  let main_v31 : IVec S256x47 1 := cmpf .olt main_v29 main_v30
  let main_c_11 : IVec S_ 1 := constantI S_ 1 1#1
  let main_v32 : IVec S_ 1 := (fun x v => Host.reduce IntOp.andi x v reducesTo_S256x47_S_d0_1 h_S_) main_v31 main_c_11
  let main_v33 : IVec S_ 1 := andi main_v28 main_v32
  main_v33

def fn {F : FTy → Type} [FloatOps F] (main_arg0 : FVec F S1000000x100 .f32) (main_arg1 : FVec F S100x256 .f32) (main_arg2 : FVec F S256 .f32) (main_arg3 : FVec F S100x256 .f32) (main_arg4 : FVec F S256x47 .f32) (main_arg5 : FVec F S47 .f32) (main_arg6 : FVec F S256x47 .f32) (main_arg7 : IVec S1024000 32) (main_arg8 : IVec S1024000 32) (main_arg9 : IVec S40960 32) (main_arg10 : IVec S40960 32) : IVec S_ 1 :=
  let main_v0 : FVec F S1000000x100 .f32 := Host.absf main_arg0
  let main_cst : FVec F S_ .f32 := constant S_ .f32 0x7F800000#32
  let main_v1 : FVec F S1000000x100 .f32 := broadcastInDim S1000000x100 ![] bcast_S_S1000000x100 main_cst
  let main_v2 : IVec S1000000x100 1 := cmpf .olt main_v0 main_v1
  let main_c : IVec S_ 1 := constantI S_ 1 1#1
  let main_v3 : IVec S_ 1 := (fun x v => Host.reduce IntOp.andi x v reducesTo_S1000000x100_S_d0_1 h_S_) main_v2 main_c
  let main_v4 : FVec F S100x256 .f32 := Host.absf main_arg1
  let main_cst_0 : FVec F S_ .f32 := constant S_ .f32 0x7F800000#32
  let main_v5 : FVec F S100x256 .f32 := broadcastInDim S100x256 ![] bcast_S_S100x256 main_cst_0
  let main_v6 : IVec S100x256 1 := cmpf .olt main_v4 main_v5
  let main_c_1 : IVec S_ 1 := constantI S_ 1 1#1
  let main_v7 : IVec S_ 1 := (fun x v => Host.reduce IntOp.andi x v reducesTo_S100x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S100x256 .f32 := Host.absf main_arg3
  let main_cst_4 : FVec F S_ .f32 := constant S_ .f32 0x7F800000#32
  let main_v15 : FVec F S100x256 .f32 := broadcastInDim S100x256 ![] bcast_S_S100x256 main_cst_4
  let main_v16 : IVec S100x256 1 := cmpf .olt main_v14 main_v15
  fn_part1 (F := F) main_arg4 main_arg5 main_arg6 main_v13 main_v16
-- ==== Kernel.lean ====
abbrev S1000000x100 : Shape := ⟨2, ![1000000, 100]⟩
abbrev S100x256 : Shape := ⟨2, ![100, 256]⟩
abbrev S256 : Shape := ⟨1, ![256]⟩
abbrev S256x47 : Shape := ⟨2, ![256, 47]⟩
abbrev S47 : Shape := ⟨1, ![47]⟩
abbrev S1024000 : Shape := ⟨1, ![1024000]⟩
abbrev S40960 : Shape := ⟨1, ![40960]⟩
abbrev S_ : Shape := ⟨0, ![]⟩
abbrev S1024000x1 : Shape := ⟨2, ![1024000, 1]⟩
abbrev S1024000x100 : Shape := ⟨2, ![1024000, 100]⟩
abbrev S40960x100 : Shape := ⟨2, ![40960, 100]⟩
abbrev S40960x1 : Shape := ⟨2, ![40960, 1]⟩
abbrev S40960x256 : Shape := ⟨2, ![40960, 256]⟩
abbrev S4096x100 : Shape := ⟨2, ![4096, 100]⟩
abbrev S4096x256 : Shape := ⟨2, ![4096, 256]⟩
abbrev S1x256 : Shape := ⟨2, ![1, 256]⟩
abbrev S4096x1 : Shape := ⟨2, ![4096, 1]⟩
abbrev S4096x47 : Shape := ⟨2, ![4096, 47]⟩
abbrev S2048x256 : Shape := ⟨2, ![2048, 256]⟩
abbrev S2048x47 : Shape := ⟨2, ![2048, 47]⟩
abbrev S1x47 : Shape := ⟨2, ![1, 47]⟩
abbrev S2048 : Shape := ⟨1, ![2048]⟩
abbrev S2048x1 : Shape := ⟨2, ![2048, 1]⟩

abbrev nBuf : Space → Nat
  | .hbm => 63
  | .vmem => 18
  | .smem => 0
  | _ => 0

abbrev bufTy : (tb : Table) → Fin (tcTables nBuf tb) → BufTy
  | .hbm, ⟨0, _⟩ => ⟨S1000000x100, .f32⟩
  | .hbm, ⟨1, _⟩ => ⟨S100x256, .f32⟩
  | .hbm, ⟨2, _⟩ => ⟨S256, .f32⟩
  | .hbm, ⟨3, _⟩ => ⟨S100x256, .f32⟩
  | .hbm, ⟨4, _⟩ => ⟨S256x47, .f32⟩
  | .hbm, ⟨5, _⟩ => ⟨S47, .f32⟩
  | .hbm, ⟨6, _⟩ => ⟨S256x47, .f32⟩
  | .hbm, ⟨7, _⟩ => ⟨S1024000, .i32⟩
  | .hbm, ⟨8, _⟩ => ⟨S1024000, .i32⟩
  | .hbm, ⟨9, _⟩ => ⟨S40960, .i32⟩
  | .hbm, ⟨10, _⟩ => ⟨S40960, .i32⟩
  | .hbm, ⟨11, _⟩ => ⟨S_, .i32⟩
  | .hbm, ⟨12, _⟩ => ⟨S1024000, .i32⟩
  | .hbm, ⟨13, _⟩ => ⟨S1024000, .i1⟩
  | .hbm, ⟨14, _⟩ => ⟨S_, .i32⟩
  | .hbm, ⟨15, _⟩ => ⟨S1024000, .i32⟩
  | .hbm, ⟨16, _⟩ => ⟨S1024000, .i32⟩
  | .hbm, ⟨17, _⟩ => ⟨S1024000, .i32⟩
  | .hbm, ⟨18, _⟩ => ⟨S1024000x1, .i32⟩
  | .hbm, ⟨19, _⟩ => ⟨S1024000x100, .f32⟩
  | .hbm, ⟨20, _⟩ => ⟨S_, .f32⟩
  | .hbm, ⟨21, _⟩ => ⟨S40960x100, .f32⟩
  | .hbm, ⟨22, _⟩ => ⟨S1024000x1, .i32⟩
  | .hbm, ⟨23, _⟩ => ⟨S40960x100, .f32⟩
  | .hbm, ⟨24, _⟩ => ⟨S_, .f32⟩
  | .hbm, ⟨25, _⟩ => ⟨S1024000x1, .f32⟩
  | .hbm, ⟨26, _⟩ => ⟨S_, .f32⟩
  | .hbm, ⟨27, _⟩ => ⟨S40960x1, .f32⟩
  | .hbm, ⟨28, _⟩ => ⟨S1024000x1, .i32⟩
  | .hbm, ⟨29, _⟩ => ⟨S40960x1, .f32⟩
  | .hbm, ⟨30, _⟩ => ⟨S_, .f32⟩
  | .hbm, ⟨31, _⟩ => ⟨S40960x1, .f32⟩
  | .hbm, ⟨32, _⟩ => ⟨S40960x1, .f32⟩
  | .hbm, ⟨33, _⟩ => ⟨S40960x100, .f32⟩
  | .hbm, ⟨34, _⟩ => ⟨S40960x100, .f32⟩
  | .hbm, ⟨35, _⟩ => ⟨S40960x100, .f32⟩
  | .hbm, ⟨36, _⟩ => ⟨S40960x256, .f32⟩
  | .hbm, ⟨37, _⟩ => ⟨S_, .i32⟩
  | .hbm, ⟨38, _⟩ => ⟨S40960, .i32⟩
  | .hbm, ⟨39, _⟩ => ⟨S40960, .i1⟩
  | .hbm, ⟨40, _⟩ => ⟨S_, .i32⟩
  | .hbm, ⟨41, _⟩ => ⟨S40960, .i32⟩
  | .hbm, ⟨42, _⟩ => ⟨S40960, .i32⟩
  | .hbm, ⟨43, _⟩ => ⟨S40960, .i32⟩
  | .hbm, ⟨44, _⟩ => ⟨S40960x1, .i32⟩
  | .hbm, ⟨45, _⟩ => ⟨S40960x256, .f32⟩
  | .hbm, ⟨46, _⟩ => ⟨S_, .f32⟩
  | .hbm, ⟨47, _⟩ => ⟨S4096x256, .f32⟩
  | .hbm, ⟨48, _⟩ => ⟨S40960x1, .i32⟩
  | .hbm, ⟨49, _⟩ => ⟨S4096x256, .f32⟩
  | .hbm, ⟨50, _⟩ => ⟨S_, .f32⟩
  | .hbm, ⟨51, _⟩ => ⟨S40960x1, .f32⟩
  | .hbm, ⟨52, _⟩ => ⟨S_, .f32⟩
  | .hbm, ⟨53, _⟩ => ⟨S4096x1, .f32⟩
  | .hbm, ⟨54, _⟩ => ⟨S40960x1, .i32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S4096x256, .f32⟩
  | .hbm, ⟨60, _⟩ => ⟨S4096x256, .f32⟩
  | .hbm, ⟨61, _⟩ => ⟨S4096x256, .f32⟩
  | .hbm, ⟨62, _⟩ => ⟨S4096x47, .f32⟩
  | .local _ .vmem, ⟨0, _⟩ => ⟨S4096x100, .f32⟩
  | .local _ .vmem, ⟨1, _⟩ => ⟨S4096x100, .f32⟩
  | .local _ .vmem, ⟨2, _⟩ => ⟨S4096x100, .f32⟩
  | .local _ .vmem, ⟨3, _⟩ => ⟨S4096x100, .f32⟩
  | .local _ .vmem, ⟨4, _⟩ => ⟨S100x256, .f32⟩
  | .local _ .vmem, ⟨5, _⟩ => ⟨S256, .f32⟩
  | .local _ .vmem, ⟨6, _⟩ => ⟨S100x256, .f32⟩
  | .local _ .vmem, ⟨7, _⟩ => ⟨S4096x256, .f32⟩
  | .local _ .vmem, ⟨8, _⟩ => ⟨S4096x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S256x47, .f32⟩
  | .local _ .vmem, ⟨14, _⟩ => ⟨S47, .f32⟩
  | .local _ .vmem, ⟨15, _⟩ => ⟨S256x47, .f32⟩
  | .local _ .vmem, ⟨16, _⟩ => ⟨S2048x47, .f32⟩
  | .local _ .vmem, ⟨17, _⟩ => ⟨S2048x47, .f32⟩
  | _, _ => ⟨S1000000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_cst_8 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_9 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x47 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S47 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x47 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x47 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1024000 : S_.BroadcastsInDim S1024000 (![] : Fin 0 → Fin S1024000.rank)
  bcast_S1024000_S1024000x1_0 : S1024000.BroadcastsInDim S1024000x1 (![0] : Fin 1 → Fin S1024000x1.rank)
  bcast_S_S40960x100 : S_.BroadcastsInDim S40960x100 (![] : Fin 0 → Fin S40960x100.rank)
  bcast_S_S1024000x1 : S_.BroadcastsInDim S1024000x1 (![] : Fin 0 → Fin S1024000x1.rank)
  bcast_S_S40960x1 : S_.BroadcastsInDim S40960x1 (![] : Fin 0 → Fin S40960x1.rank)
  bcast_S40960x1_S40960x100_0_1 : S40960x1.BroadcastsInDim S40960x100 (![0, 1] : Fin 2 → Fin S40960x100.rank)
  slices_S1000000x100_S40960x100_0_0 : S1000000x100.Slices ![0, 0] S40960x100
  inb_S4096x100_S4096x100_0_0 : ∀ a, (![0, 0] : Fin 2 → Nat) a + S4096x100.size a ≤ S4096x100.size a
  h_S4096x100 : 0 < S4096x100.numel
  shapeCasts_S4096x100_S4096x100 : S4096x100.ShapeCasts S4096x100
  bitsLt_bf16_f32 : FTy.bits .bf16 < FTy.bits .f32
  inb_S100x256_S100x256_0_0 : ∀ a, (![0, 0] : Fin 2 → Nat) a + S100x256.size a ≤ S100x256.size a
  h_S100x256 : 0 < S100x256.numel
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  bcast_S_S40960 : S_.BroadcastsInDim S40960 (![] : Fin 0 → Fin S40960.rank)
  bcast_S40960_S40960x1_0 : S40960.BroadcastsInDim S40960x1 (![0] : Fin 1 → Fin S40960x1.rank)
  bcast_S_S4096x256 : S_.BroadcastsInDim S4096x256 (![] : Fin 0 → Fin S4096x256.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  slices_S40960x256_S4096x256_0_0 : S40960x256.Slices ![0, 0] S4096x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x47_S256x47_0_0 : ∀ a, (![0, 0] : Fin 2 → Nat) a + S256x47.size a ≤ S256x47.size a
  h_S256x47 : 0 < S256x47.numel
  inb_S47_S47_0 : ∀ a, (![0] : Fin 1 → Nat) a + S47.size a ≤ S47.size a
  h_S47 : 0 < S47.numel
  shapeCasts_S47_S1x47 : S47.ShapeCasts S1x47
  broadcasts_S1x47_S2048x47 : S1x47.Broadcasts S2048x47
  reduces_S2048x47_S2048 : S2048x47.Reduces [1] S2048
  shapeCasts_S2048_S2048x1 : S2048.ShapeCasts S2048x1
  broadcasts_S2048x1_S2048x47 : S2048x1.Broadcasts S2048x47
  inb_S2048x47_S2048x47_0_0 : ∀ a, (![0, 0] : Fin 2 → Nat) a + S2048x47.size a ≤ S2048x47.size a
  h_S2048x47 : 0 < S2048x47.numel
  gather_S1000000x100_S1024000x1_S1024000x100_1_0_n_n_0_1_1100_wf : GatherDims.WF S1000000x100 S1024000x1 S1024000x100 [1] [0] [] [0] [] 1 ![1, 100]
  scatter_S40960x100_S1024000x1_S1024000x100_1_0_0_1_wf : ScatterDims.WF S40960x100 S1024000x1 S1024000x100 [1] [0] [0] 1
  scatter_S40960x1_S1024000x1_S1024000x1_1_0_0_1_wf : ScatterDims.WF S40960x1 S1024000x1 S1024000x1 [1] [0] [0] 1
  dot_S4096x100_S100x256_S4096x256_1_0_0_1_n_n_wf : DotDims.WF S4096x100 S100x256 S4096x256 [1] [0] [0] [1] [] []
  gather_S40960x256_S40960x1_S40960x256_1_0_n_n_0_1_1256_wf : GatherDims.WF S40960x256 S40960x1 S40960x256 [1] [0] [] [0] [] 1 ![1, 256]
  scatter_S4096x256_S40960x1_S40960x256_1_0_0_1_wf : ScatterDims.WF S4096x256 S40960x1 S40960x256 [1] [0] [0] 1
  scatter_S4096x1_S40960x1_S40960x1_1_0_0_1_wf : ScatterDims.WF S4096x1 S40960x1 S40960x1 [1] [0] [0] 1
  dot_S2048x256_S256x47_S2048x47_1_0_0_1_n_n_wf : DotDims.WF S2048x256 S256x47 S2048x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x100.size a ≤ S40960x100.size a
  hwx0_0 : ∀ i : grid0.Coords, EltTy.bits .f32 = 32 ∨ (Rect.block (s := S40960x100) S4096x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x100.size a ≤ S40960x100.size a
  hwx0_1 : ∀ i : grid0.Coords, EltTy.bits .f32 = 32 ∨ (Rect.block (s := S40960x100) S4096x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x256.size a ≤ S100x256.size a
  hwx0_2 : ∀ i : grid0.Coords, EltTy.bits .f32 = 32 ∨ (Rect.block (s := S100x256) S100x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S100x256.size a ≤ S100x256.size a
  hwx0_4 : ∀ i : grid0.Coords, EltTy.bits .f32 = 32 ∨ (Rect.block (s := S100x256) S100x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S40960x256.size a
  hwx0_5 : ∀ i : grid0.Coords, EltTy.bits .f32 = 32 ∨ (Rect.block (s := S40960x256) S4096x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S4096x256.size a
  hwx1_0 : ∀ i : grid1.Coords, EltTy.bits .f32 = 32 ∨ (Rect.block (s := S4096x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S4096x256.size a
  hwx1_1 : ∀ i : grid1.Coords, EltTy.bits .f32 = 32 ∨ (Rect.block (s := S4096x256) S2048x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x47.size a ≤ S256x47.size a
  hwx1_2 : ∀ i : grid1.Coords, EltTy.bits .f32 = 32 ∨ (Rect.block (s := S256x47) S256x47.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S47.size a ≤ S47.size a
  hwx1_3 : ∀ i : grid1.Coords, EltTy.bits .f32 = 32 ∨ (Rect.block (s := S47) S47.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x47.size a ≤ S256x47.size a
  hwx1_4 : ∀ i : grid1.Coords, EltTy.bits .f32 = 32 ∨ (Rect.block (s := S256x47) S256x47.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x47.size a ≤ S4096x47.size a
  hwx1_5 : ∀ i : grid1.Coords, EltTy.bits .f32 = 32 ∨ (Rect.block (s := S4096x47) S2048x47.size (cc1_transform_5 i) (hinb1_5 i)).WholeWords (EltTy.packing .f32)

variable [Facts₀]

def gather_S1000000x100_S1024000x1_S1024000x100_1_0_n_n_0_1_1100 : GatherDims S1000000x100 S1024000x1 S1024000x100 where
  offsetDims := [1]
  collapsedSliceDims := [0]
  operandBatchingDims := []
  startIndicesBatchingDims := []
  startIndexMap := [0]
  indexVectorDim := 1
  sliceSizes := ![1, 100]
  wf := gather_S1000000x100_S1024000x1_S1024000x100_1_0_n_n_0_1_1100_wf
def scatter_S40960x100_S1024000x1_S1024000x100_1_0_0_1 : ScatterDims S40960x100 S1024000x1 S1024000x100 where
  updateWindowDims := [1]
  insertedWindowDims := [0]
  scatterDimsToOperandDims := [0]
  indexVectorDim := 1
  wf := scatter_S40960x100_S1024000x1_S1024000x100_1_0_0_1_wf
def scatter_S40960x1_S1024000x1_S1024000x1_1_0_0_1 : ScatterDims S40960x1 S1024000x1 S1024000x1 where
  updateWindowDims := [1]
  insertedWindowDims := [0]
  scatterDimsToOperandDims := [0]
  indexVectorDim := 1
  wf := scatter_S40960x1_S1024000x1_S1024000x1_1_0_0_1_wf
def dot_S4096x100_S100x256_S4096x256_1_0_0_1_n_n : DotDims S4096x100 S100x256 S4096x256 where
  lhsContracting := [1]
  rhsContracting := [0]
  lhsNonContracting := [0]
  rhsNonContracting := [1]
  lhsBatch := []
  rhsBatch := []
  wf := dot_S4096x100_S100x256_S4096x256_1_0_0_1_n_n_wf
def gather_S40960x256_S40960x1_S40960x256_1_0_n_n_0_1_1256 : GatherDims S40960x256 S40960x1 S40960x256 where
  offsetDims := [1]
  collapsedSliceDims := [0]
  operandBatchingDims := []
  startIndicesBatchingDims := []
  startIndexMap := [0]
  indexVectorDim := 1
  sliceSizes := ![1, 256]
  wf := gather_S40960x256_S40960x1_S40960x256_1_0_n_n_0_1_1256_wf
def scatter_S4096x256_S40960x1_S40960x256_1_0_0_1 : ScatterDims S4096x256 S40960x1 S40960x256 where
  updateWindowDims := [1]
  insertedWindowDims := [0]
  scatterDimsToOperandDims := [0]
  indexVectorDim := 1
  wf := scatter_S4096x256_S40960x1_S40960x256_1_0_0_1_wf
def scatter_S4096x1_S40960x1_S40960x1_1_0_0_1 : ScatterDims S4096x1 S40960x1 S40960x1 where
  updateWindowDims := [1]
  insertedWindowDims := [0]
  scatterDimsToOperandDims := [0]
  indexVectorDim := 1
  wf := scatter_S4096x1_S40960x1_S40960x1_1_0_0_1_wf
def dot_S2048x256_S256x47_S2048x47_1_0_0_1_n_n : DotDims S2048x256 S256x47 S2048x47 where
  lhsContracting := [1]
  rhsContracting := [0]
  lhsNonContracting := [0]
  rhsNonContracting := [1]
  lhsBatch := []
  rhsBatch := []
  wf := dot_S2048x256_S256x47_S2048x47_1_0_0_1_n_n_wf

abbrev win0_0 : Pipeline.Window sig grid0 :=
  Pipeline.Window.ofSpec (Memref.whole main_v17) S4096x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4096x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S100x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S100x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S4096x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x47.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S47.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S256x47.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S2048x47.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S1000000x100 : Shape := ⟨2, ![1000000, 100]⟩
abbrev S100x256 : Shape := ⟨2, ![100, 256]⟩
abbrev S256 : Shape := ⟨1, ![256]⟩
abbrev S256x47 : Shape := ⟨2, ![256, 47]⟩
abbrev S47 : Shape := ⟨1, ![47]⟩
abbrev S1024000 : Shape := ⟨1, ![1024000]⟩
abbrev S40960 : Shape := ⟨1, ![40960]⟩
abbrev S40960x100 : Shape := ⟨2, ![40960, 100]⟩
abbrev S_ : Shape := ⟨0, ![]⟩
abbrev S1024000x1 : Shape := ⟨2, ![1024000, 1]⟩
abbrev S1024000x100 : Shape := ⟨2, ![1024000, 100]⟩
abbrev S40960x1 : Shape := ⟨2, ![40960, 1]⟩
abbrev S40960x256 : Shape := ⟨2, ![40960, 256]⟩
abbrev S1x256 : Shape := ⟨2, ![1, 256]⟩
abbrev S4096x256 : Shape := ⟨2, ![4096, 256]⟩
abbrev S4096x1 : Shape := ⟨2, ![4096, 1]⟩
abbrev S4096x47 : Shape := ⟨2, ![4096, 47]⟩
abbrev S1x47 : Shape := ⟨2, ![1, 47]⟩
abbrev S4096 : Shape := ⟨1, ![4096]⟩

abbrev nBuf : Space → Nat
  | .hbm => 91
  | .vmem => 0
  | .smem => 0
  | _ => 0

abbrev bufTy : (tb : Table) → Fin (tcTables nBuf tb) → BufTy
  | .hbm, ⟨0, _⟩ => ⟨S1000000x100, .f32⟩
  | .hbm, ⟨1, _⟩ => ⟨S100x256, .f32⟩
  | .hbm, ⟨2, _⟩ => ⟨S256, .f32⟩
  | .hbm, ⟨3, _⟩ => ⟨S100x256, .f32⟩
  | .hbm, ⟨4, _⟩ => ⟨S256x47, .f32⟩
  | .hbm, ⟨5, _⟩ => ⟨S47, .f32⟩
  | .hbm, ⟨6, _⟩ => ⟨S256x47, .f32⟩
  | .hbm, ⟨7, _⟩ => ⟨S1024000, .i32⟩
  | .hbm, ⟨8, _⟩ => ⟨S1024000, .i32⟩
  | .hbm, ⟨9, _⟩ => ⟨S40960, .i32⟩
  | .hbm, ⟨10, _⟩ => ⟨S40960, .i32⟩
  | .hbm, ⟨11, _⟩ => ⟨S40960x100, .f32⟩
  | .hbm, ⟨12, _⟩ => ⟨S_, .i32⟩
  | .hbm, ⟨13, _⟩ => ⟨S1024000, .i32⟩
  | .hbm, ⟨14, _⟩ => ⟨S1024000, .i1⟩
  | .hbm, ⟨15, _⟩ => ⟨S_, .i32⟩
  | .hbm, ⟨16, _⟩ => ⟨S1024000, .i32⟩
  | .hbm, ⟨17, _⟩ => ⟨S1024000, .i32⟩
  | .hbm, ⟨18, _⟩ => ⟨S1024000, .i32⟩
  | .hbm, ⟨19, _⟩ => ⟨S1024000x1, .i32⟩
  | .hbm, ⟨20, _⟩ => ⟨S1024000x100, .f32⟩
  | .hbm, ⟨21, _⟩ => ⟨S_, .f32⟩
  | .hbm, ⟨22, _⟩ => ⟨S40960x100, .f32⟩
  | .hbm, ⟨23, _⟩ => ⟨S1024000x1, .i32⟩
  | .hbm, ⟨24, _⟩ => ⟨S40960x100, .f32⟩
  | .hbm, ⟨25, _⟩ => ⟨S_, .f32⟩
  | .hbm, ⟨26, _⟩ => ⟨S1024000x1, .f32⟩
  | .hbm, ⟨27, _⟩ => ⟨S_, .f32⟩
  | .hbm, ⟨28, _⟩ => ⟨S40960x1, .f32⟩
  | .hbm, ⟨29, _⟩ => ⟨S1024000x1, .i32⟩
  | .hbm, ⟨30, _⟩ => ⟨S40960x1, .f32⟩
  | .hbm, ⟨31, _⟩ => ⟨S_, .f32⟩
  | .hbm, ⟨32, _⟩ => ⟨S40960x1, .f32⟩
  | .hbm, ⟨33, _⟩ => ⟨S40960x1, .f32⟩
  | .hbm, ⟨34, _⟩ => ⟨S40960x100, .f32⟩
  | .hbm, ⟨35, _⟩ => ⟨S40960x100, .f32⟩
  | .hbm, ⟨36, _⟩ => ⟨S40960x256, .f32⟩
  | .hbm, ⟨37, _⟩ => ⟨S1x256, .f32⟩
  | .hbm, ⟨38, _⟩ => ⟨S40960x256, .f32⟩
  | .hbm, ⟨39, _⟩ => ⟨S40960x256, .f32⟩
  | .hbm, ⟨40, _⟩ => ⟨S40960x256, .f32⟩
  | .hbm, ⟨41, _⟩ => ⟨S40960x256, .f32⟩
  | .hbm, ⟨42, _⟩ => ⟨S_, .f32⟩
  | .hbm, ⟨43, _⟩ => ⟨S40960x256, .f32⟩
  | .hbm, ⟨44, _⟩ => ⟨S40960x256, .f32⟩
  | .hbm, ⟨45, _⟩ => ⟨S4096x256, .f32⟩
  | .hbm, ⟨46, _⟩ => ⟨S_, .i32⟩
  | .hbm, ⟨47, _⟩ => ⟨S40960, .i32⟩
  | .hbm, ⟨48, _⟩ => ⟨S40960, .i1⟩
  | .hbm, ⟨49, _⟩ => ⟨S_, .i32⟩
  | .hbm, ⟨50, _⟩ => ⟨S40960, .i32⟩
  | .hbm, ⟨51, _⟩ => ⟨S40960, .i32⟩
  | .hbm, ⟨52, _⟩ => ⟨S40960, .i32⟩
  | .hbm, ⟨53, _⟩ => ⟨S40960x1, .i32⟩
  | .hbm, ⟨54, _⟩ => ⟨S40960x256, .f32⟩
  | .hbm, ⟨55, _⟩ => ⟨S_, .f32⟩
  | .hbm, ⟨56, _⟩ => ⟨S4096x256, .f32⟩
  | .hbm, ⟨57, _⟩ => ⟨S40960x1, .i32⟩
  | .hbm, ⟨58, _⟩ => ⟨S4096x256, .f32⟩
  | .hbm, ⟨59, _⟩ => ⟨S_, .f32⟩
  | .hbm, ⟨60, _⟩ => ⟨S40960x1, .f32⟩
  | .hbm, ⟨61, _⟩ => ⟨S_, .f32⟩
  | .hbm, ⟨62, _⟩ => ⟨S4096x1, .f32⟩
  | .hbm, ⟨63, _⟩ => ⟨S40960x1, .i32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S4096x256, .f32⟩
  | .hbm, ⟨69, _⟩ => ⟨S4096x256, .f32⟩
  | .hbm, ⟨70, _⟩ => ⟨S4096x47, .f32⟩
  | .hbm, ⟨71, _⟩ => ⟨S1x47, .f32⟩
  | .hbm, ⟨72, _⟩ => ⟨S4096x47, .f32⟩
  | .hbm, ⟨73, _⟩ => ⟨S4096x47, .f32⟩
  | .hbm, ⟨74, _⟩ => ⟨S4096x47, .f32⟩
  | .hbm, ⟨75, _⟩ => ⟨S4096x47, .f32⟩
  | .hbm, ⟨76, _⟩ => ⟨S_, .f32⟩
  | .hbm, ⟨77, _⟩ => ⟨S4096, .f32⟩
  | .hbm, ⟨78, _⟩ => ⟨S_, .f32⟩
  | .hbm, ⟨79, _⟩ => ⟨S4096, .f32⟩
  | .hbm, ⟨80, _⟩ => ⟨S4096, .f32⟩
  | .hbm, ⟨81, _⟩ => ⟨S4096x1, .f32⟩
  | .hbm, ⟨82, _⟩ => ⟨S4096x47, .f32⟩
  | .hbm, ⟨83, _⟩ => ⟨S4096x47, .f32⟩
  | .hbm, ⟨84, _⟩ => ⟨S4096x47, .f32⟩
  | .hbm, ⟨85, _⟩ => ⟨S_, .f32⟩
  | .hbm, ⟨86, _⟩ => ⟨S4096, .f32⟩
  | .hbm, ⟨87, _⟩ => ⟨S4096x1, .f32⟩
  | .hbm, ⟨88, _⟩ => ⟨S4096x1, .f32⟩
  | .hbm, ⟨89, _⟩ => ⟨S4096x47, .f32⟩
  | .hbm, ⟨90, _⟩ => ⟨S4096x47, .f32⟩
  | _, _ => ⟨S1000000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call0_cst : Ref sig .tc := ⟨.hbm, 42, rfl⟩
abbrev main_call0_v0 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call1_cst : Ref sig .tc := ⟨.hbm, 76, rfl⟩
abbrev main_call1_v0 : Ref sig .tc := ⟨.hbm, 77, rfl⟩
abbrev main_call1_cst_0 : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_v6 : Ref sig .tc := ⟨.hbm, 84, rfl⟩
abbrev main_call1_cst_1 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_v51 : Ref sig .tc := ⟨.hbm, 90, rfl⟩

abbrev nD : Nat := 1
abbrev τ : Topo := Topo.v7x

variable {F : FTy → Type} [FloatOps F]

class Facts₀ : Prop where
  slices_S1000000x100_S40960x100_0_0 : S1000000x100.Slices ![0, 0] S40960x100
  bcast_S_S1024000 : S_.BroadcastsInDim S1024000 (![] : Fin 0 → Fin S1024000.rank)
  bcast_S1024000_S1024000x1_0 : S1024000.BroadcastsInDim S1024000x1 (![0] : Fin 1 → Fin S1024000x1.rank)
  bcast_S_S40960x100 : S_.BroadcastsInDim S40960x100 (![] : Fin 0 → Fin S40960x100.rank)
  bcast_S_S1024000x1 : S_.BroadcastsInDim S1024000x1 (![] : Fin 0 → Fin S1024000x1.rank)
  bcast_S_S40960x1 : S_.BroadcastsInDim S40960x1 (![] : Fin 0 → Fin S40960x1.rank)
  bcast_S40960x1_S40960x100_0_1 : S40960x1.BroadcastsInDim S40960x100 (![0, 1] : Fin 2 → Fin S40960x100.rank)
  bcast_S256_S1x256_1 : S256.BroadcastsInDim S1x256 (![1] : Fin 1 → Fin S1x256.rank)
  bcast_S1x256_S40960x256_0_1 : S1x256.BroadcastsInDim S40960x256 (![0, 1] : Fin 2 → Fin S40960x256.rank)
  bcast_S_S40960x256 : S_.BroadcastsInDim S40960x256 (![] : Fin 0 → Fin S40960x256.rank)
  slices_S40960x256_S4096x256_0_0 : S40960x256.Slices ![0, 0] S4096x256
  bcast_S_S40960 : S_.BroadcastsInDim S40960 (![] : Fin 0 → Fin S40960.rank)
  bcast_S40960_S40960x1_0 : S40960.BroadcastsInDim S40960x1 (![0] : Fin 1 → Fin S40960x1.rank)
  bcast_S_S4096x256 : S_.BroadcastsInDim S4096x256 (![] : Fin 0 → Fin S4096x256.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  bcast_S47_S1x47_1 : S47.BroadcastsInDim S1x47 (![1] : Fin 1 → Fin S1x47.rank)
  bcast_S1x47_S4096x47_0_1 : S1x47.BroadcastsInDim S4096x47 (![0, 1] : Fin 2 → Fin S4096x47.rank)
  reducesTo_S4096x47_S4096_d1 : S4096x47.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x47_0_1 : S4096x1.BroadcastsInDim S4096x47 (![0, 1] : Fin 2 → Fin S4096x47.rank)
  gather_S1000000x100_S1024000x1_S1024000x100_1_0_n_n_0_1_1100_wf : GatherDims.WF S1000000x100 S1024000x1 S1024000x100 [1] [0] [] [0] [] 1 ![1, 100]
  scatter_S40960x100_S1024000x1_S1024000x100_1_0_0_1_wf : ScatterDims.WF S40960x100 S1024000x1 S1024000x100 [1] [0] [0] 1
  scatter_S40960x1_S1024000x1_S1024000x1_1_0_0_1_wf : ScatterDims.WF S40960x1 S1024000x1 S1024000x1 [1] [0] [0] 1
  dot_S40960x100_S100x256_S40960x256_1_0_0_1_n_n_wf : DotDims.WF S40960x100 S100x256 S40960x256 [1] [0] [0] [1] [] []
  gather_S40960x256_S40960x1_S40960x256_1_0_n_n_0_1_1256_wf : GatherDims.WF S40960x256 S40960x1 S40960x256 [1] [0] [] [0] [] 1 ![1, 256]
  scatter_S4096x256_S40960x1_S40960x256_1_0_0_1_wf : ScatterDims.WF S4096x256 S40960x1 S40960x256 [1] [0] [0] 1
  scatter_S4096x1_S40960x1_S40960x1_1_0_0_1_wf : ScatterDims.WF S4096x1 S40960x1 S40960x1 [1] [0] [0] 1
  dot_S4096x256_S256x47_S4096x47_1_0_0_1_n_n_wf : DotDims.WF S4096x256 S256x47 S4096x47 [1] [0] [0] [1] [] []

variable [Facts₀]

def gather_S1000000x100_S1024000x1_S1024000x100_1_0_n_n_0_1_1100 : GatherDims S1000000x100 S1024000x1 S1024000x100 where
  offsetDims := [1]
  collapsedSliceDims := [0]
  operandBatchingDims := []
  startIndicesBatchingDims := []
  startIndexMap := [0]
  indexVectorDim := 1
  sliceSizes := ![1, 100]
  wf := gather_S1000000x100_S1024000x1_S1024000x100_1_0_n_n_0_1_1100_wf
def scatter_S40960x100_S1024000x1_S1024000x100_1_0_0_1 : ScatterDims S40960x100 S1024000x1 S1024000x100 where
  updateWindowDims := [1]
  insertedWindowDims := [0]
  scatterDimsToOperandDims := [0]
  indexVectorDim := 1
  wf := scatter_S40960x100_S1024000x1_S1024000x100_1_0_0_1_wf
def scatter_S40960x1_S1024000x1_S1024000x1_1_0_0_1 : ScatterDims S40960x1 S1024000x1 S1024000x1 where
  updateWindowDims := [1]
  insertedWindowDims := [0]
  scatterDimsToOperandDims := [0]
  indexVectorDim := 1
  wf := scatter_S40960x1_S1024000x1_S1024000x1_1_0_0_1_wf
def dot_S40960x100_S100x256_S40960x256_1_0_0_1_n_n : DotDims S40960x100 S100x256 S40960x256 where
  lhsContracting := [1]
  rhsContracting := [0]
  lhsNonContracting := [0]
  rhsNonContracting := [1]
  lhsBatch := []
  rhsBatch := []
  wf := dot_S40960x100_S100x256_S40960x256_1_0_0_1_n_n_wf
def gather_S40960x256_S40960x1_S40960x256_1_0_n_n_0_1_1256 : GatherDims S40960x256 S40960x1 S40960x256 where
  offsetDims := [1]
  collapsedSliceDims := [0]
  operandBatchingDims := []
  startIndicesBatchingDims := []
  startIndexMap := [0]
  indexVectorDim := 1
  sliceSizes := ![1, 256]
  wf := gather_S40960x256_S40960x1_S40960x256_1_0_n_n_0_1_1256_wf
def scatter_S4096x256_S40960x1_S40960x256_1_0_0_1 : ScatterDims S4096x256 S40960x1 S40960x256 where
  updateWindowDims := [1]
  insertedWindowDims := [0]
  scatterDimsToOperandDims := [0]
  indexVectorDim := 1
  wf := scatter_S4096x256_S40960x1_S40960x256_1_0_0_1_wf
def scatter_S4096x1_S40960x1_S40960x1_1_0_0_1 : ScatterDims S4096x1 S40960x1 S40960x1 where
  updateWindowDims := [1]
  insertedWindowDims := [0]
  scatterDimsToOperandDims := [0]
  indexVectorDim := 1
  wf := scatter_S4096x1_S40960x1_S40960x1_1_0_0_1_wf
def dot_S4096x256_S256x47_S4096x47_1_0_0_1_n_n : DotDims S4096x256 S256x47 S4096x47 where
  lhsContracting := [1]
  rhsContracting := [0]
  lhsNonContracting := [0]
  rhsNonContracting := [1]
  lhsBatch := []
  rhsBatch := []
  wf := dot_S4096x256_S256x47_S4096x47_1_0_0_1_n_n_wf

class Facts : Prop extends Facts₀ where

variable [Facts]
-- ==== Proof.Spec.lean ====
/-
  The two dense stages of a sampled two-layer GraphSAGE network, one output row at a time, on the extended reals.

  A layer takes, for each target node, the mean `a` of its sampled neighbours' feature rows and the node's own
  feature row `x`, and forms `a · Wl + x · Wr + b`. The first layer ends in a rectifier, the second in a
  logarithmic softmax over the 47 classes: from each logit the row's maximum is taken away, and then the logarithm
  of the sum of the exponentials of those differences. Every entry of a layer's output depends on one row of each
  of the two inputs only, so both stages are stated as functions of a row; a tiling of the rows changes nothing.

  The two programs add the three summands of a layer in different orders: `(a · Wl + x · Wr) + b` against
  `(a · Wl + b) + x · Wr`. Addition of extended reals is commutative and associative, infinities included, so the
  two agree everywhere (`add_right_comm`); no entry need be finite.
-/
import Idealize.ShloMosaic.PureOps.Ideal
import Idealize.ShloMosaic.Lib.ValueIdx

noncomputable section

namespace Cert.Sage

open Idealize.ShloMosaic Idealize.ShloMosaic.ValueIdx

/-- Entry `q` of a first-layer output row: `max ((a · Wl + x · Wr) + b) 0`, the two products as sums over the 100
    input features. -/
def hiddenRow (a x : Fin 100 → EReal) (Wl Wr : (⟨2, ![100, 256]⟩ : Shape).Idx → EReal)
    (b : (⟨1, ![256]⟩ : Shape).Idx → EReal) (q : Fin 256) : EReal :=
  max ((∑ k : Fin 100, a k * Wl (ix2 k q) + ∑ k : Fin 100, x k * Wr (ix2 k q)) + b (ix1 q)) 0

/-- Logit `j` of a second-layer row: `(a · Wl + x · Wr) + b`, the two products as sums over the 256 hidden features. -/
def logitRow (a x : Fin 256 → EReal) (Wl Wr : (⟨2, ![256, 47]⟩ : Shape).Idx → EReal)
    (b : (⟨1, ![47]⟩ : Shape).Idx → EReal) (j : Fin 47) : EReal :=
  (∑ k : Fin 256, a k * Wl (ix2 k j) + ∑ k : Fin 256, x k * Wr (ix2 k j)) + b (ix1 j)

/-- The largest of a row's 47 logits, as the fold of `max` from the bottom element. -/
def rowMax (l : Fin 47 → EReal) : EReal := (Finset.univ : Finset (Fin 47)).fold max ⊥ l

/-- The logarithmic softmax of a row of logits at class `q`: the logit less the row's maximum, less the logarithm of
    the sum over the classes of the exponentials of those differences. -/
def logSoftmaxRow (l : Fin 47 → EReal) (q : Fin 47) : EReal :=
  (l q - rowMax l) - Ideal.log (∑ j : Fin 47, Ideal.exp (l j - rowMax l))

/-- Entry `q` of a second-layer output row. -/
def classRow (a x : Fin 256 → EReal) (Wl Wr : (⟨2, ![256, 47]⟩ : Shape).Idx → EReal)
    (b : (⟨1, ![47]⟩ : Shape).Idx → EReal) (q : Fin 47) : EReal :=
  logSoftmaxRow (logitRow a x Wl Wr b) q

/-- The bit pattern of negative infinity denotes the bottom element. -/
theorem ofBits_neg_inf : Ideal.ofBits .f32 0xFF800000#32 = (⊥ : EReal) := by simp [Ideal.ofBits, Ideal.ieee]

/-- The three summands of a layer may be added in either order. -/
theorem add_bias_comm (s t b : EReal) : (s + b) + t = (s + t) + b := add_right_comm s b t

end Cert.Sage

end
-- ==== Proof.HiddenBlock.lean ====
/-
  One grid point of the first dense stage: the value the body stores, read at row `p` and column `q` of the
  4096 × 256 block, is the first-layer row function of row `p` of the two input blocks.
-/
import proofs.«151406_j5033701671208_1_alg».proof.Proof.Gen.KernelIdeal.Skeleton
import proofs.«151406_j5033701671208_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Sage

open Idealize.ShloMosaic Idealize.ShloMosaic.ValueIdx Cert.KernelIdeal Cert.KernelIdeal.Gen Cert.Sage

/-! ## The product of a 4096 × 100 block with a 100 × 256 block, one entry at a time

  The contraction runs over the second axis of the left operand and the first axis of the right one; the output's two axes
  are the left operand's first and the right operand's second. The four lemmas say so, one operand axis each. -/

/-- Axis 0 of the left operand's index is the output's row. -/
private theorem lhs_axis0 (i : S4096x256.Idx) (c : Cert.KernelIdeal.dot_S4096x100_S100x256_S4096x256_1_0_0_1_n_n.contr.Idx) :
    (Cert.KernelIdeal.dot_S4096x100_S100x256_S4096x256_1_0_0_1_n_n.lhsIdx i c 0).val = (i 0).val := by
  unfold DotDims.lhsIdx
  rw [dif_neg (show ¬(0 : Fin S4096x100.rank) ∈ Cert.KernelIdeal.dot_S4096x100_S100x256_S4096x256_1_0_0_1_n_n.lhsBatch by decide), dif_pos (show (0 : Fin S4096x100.rank) ∈ Cert.KernelIdeal.dot_S4096x100_S100x256_S4096x256_1_0_0_1_n_n.lhsNonContracting by decide)]
  rfl

/-- Axis 1 of the left operand's index is the contraction index. -/
private theorem lhs_axis1 (i : S4096x256.Idx) (c : Cert.KernelIdeal.dot_S4096x100_S100x256_S4096x256_1_0_0_1_n_n.contr.Idx) :
    (Cert.KernelIdeal.dot_S4096x100_S100x256_S4096x256_1_0_0_1_n_n.lhsIdx i c 1).val = (c ⟨0, by decide⟩).val :=
  Cert.KernelIdeal.dot_S4096x100_S100x256_S4096x256_1_0_0_1_n_n.lhsIdx_val_of_single rfl i c

/-- Axis 0 of the right operand's index is the contraction index. -/
private theorem rhs_axis0 (i : S4096x256.Idx) (c : Cert.KernelIdeal.dot_S4096x100_S100x256_S4096x256_1_0_0_1_n_n.contr.Idx) :
    (Cert.KernelIdeal.dot_S4096x100_S100x256_S4096x256_1_0_0_1_n_n.rhsIdx i c 0).val = (c ⟨0, by decide⟩).val :=
  Cert.KernelIdeal.dot_S4096x100_S100x256_S4096x256_1_0_0_1_n_n.rhsIdx_val_of_single rfl i c

/-- Axis 1 of the right operand's index is the output's column. -/
private theorem rhs_axis1 (i : S4096x256.Idx) (c : Cert.KernelIdeal.dot_S4096x100_S100x256_S4096x256_1_0_0_1_n_n.contr.Idx) :
    (Cert.KernelIdeal.dot_S4096x100_S100x256_S4096x256_1_0_0_1_n_n.rhsIdx i c 1).val = (i 1).val := by
  unfold DotDims.rhsIdx
  rw [dif_neg (show ¬(1 : Fin S100x256.rank) ∈ Cert.KernelIdeal.dot_S4096x100_S100x256_S4096x256_1_0_0_1_n_n.rhsBatch by decide), dif_pos (show (1 : Fin S100x256.rank) ∈ Cert.KernelIdeal.dot_S4096x100_S100x256_S4096x256_1_0_0_1_n_n.rhsNonContracting by decide)]
  rfl

/-- The product accumulated into the zero block, at `(p, j)`: the sum over the 100 shared features of the products of row `p`
    of the left block with column `j` of the right one. -/
private theorem matmul_apply_at (l : FVec Ideal S4096x100 .bf16) (r : FVec Ideal S100x256 .bf16) (p : Fin 4096) (j : Fin 256) :
    matmul Cert.KernelIdeal.dot_S4096x100_S100x256_S4096x256_1_0_0_1_n_n none l r (constant (F := Ideal) S4096x256 .f32 0x00000000#32) (ix2 p j)
      = ∑ k : Fin 100, l (ix2 p k) * r (ix2 k j) := by
  simp only [matmul]
  rw [Ideal.matmul_constant_zero_apply, ← Equiv.sum_comp (ValueIdx.contrEquiv1 Cert.KernelIdeal.dot_S4096x100_S100x256_S4096x256_1_0_0_1_n_n 100 rfl rfl).symm]
  refine Finset.sum_congr rfl fun k _ => ?_
  have hk := ValueIdx.contrEquiv1_symm_val Cert.KernelIdeal.dot_S4096x100_S100x256_S4096x256_1_0_0_1_n_n 100 rfl rfl k
  have el : Cert.KernelIdeal.dot_S4096x100_S100x256_S4096x256_1_0_0_1_n_n.lhsIdx (ix2 p j) ((ValueIdx.contrEquiv1 Cert.KernelIdeal.dot_S4096x100_S100x256_S4096x256_1_0_0_1_n_n 100 rfl rfl).symm k) = ix2 p k := funext fun a => Fin.ext (by
    match a with
    | ⟨0, _⟩ => exact lhs_axis0 _ _
    | ⟨1, _⟩ => exact (lhs_axis1 _ _).trans hk)
  have er : Cert.KernelIdeal.dot_S4096x100_S100x256_S4096x256_1_0_0_1_n_n.rhsIdx (ix2 p j) ((ValueIdx.contrEquiv1 Cert.KernelIdeal.dot_S4096x100_S100x256_S4096x256_1_0_0_1_n_n 100 rfl rfl).symm k) = ix2 k j := funext fun a => Fin.ext (by
    match a with
    | ⟨0, _⟩ => exact (rhs_axis0 _ _).trans hk
    | ⟨1, _⟩ => exact rhs_axis1 _ _)
  rw [el, er]

/-- The stored block at `(p, q)`: `max ((a · Wl + x · Wr) + b) 0` of row `p` of the neighbour-mean block `v0` and of the
    node-feature block `v3`. -/
theorem hidden_block_apply (v0 v3 : Vec Ideal S4096x100 .f32) (v6 v8 : Vec Ideal S100x256 .f32) (v10 : Vec Ideal S256 .f32)
    (p : Fin 4096) (q : Fin 256) :
    k0_pay1 (F := Ideal) v0 v3 v6 v8 v10 (ix2 p q)
      = hiddenRow (fun k => v0 (ix2 p k)) (fun k => v3 (ix2 p k)) v6 v8 v10 q := by
  unfold k0_pay1
  -- The maximum, the two additions and the splat of the scalar act entry by entry.
  simp only [maximumf_apply, addf_apply, broadcast_apply]
  -- Each product into the zero block is the sum over the 100 shared features; a cast to the same shape changes nothing.
  rw [matmul_apply_at, matmul_apply_at, shapeCast_self, shapeCast_self]
  -- The bias, laid out as one row and repeated down the 4096 rows, reads at `(p, q)` its entry `q`.
  rw [broadcastTo_1b_ab_apply, shapeCast_a_1a_apply]
  -- The scalar the maximum is taken against is the extended real `0`; a change of format is the identity on extended reals,
  -- and the summands stand in the specification's order.
  show max _ (Ideal.ofBits .f32 0x00000000#32) = _
  rw [Ideal.ofBits_zero_f32]
  rfl

end Cert.KernelIdeal.Sage

end
-- ==== Proof.LibColumn.lean ====
/-
  Column forms of the keep-dimension layout operations, read at an index: a vector of `a` entries reshaped to
  an `[a, 1]` column holds, in row `i`, entry `i`; and an `[a, 1]` column broadcast along the second axis to
  `[a, b]` holds, at `(p, c)`, the column's entry of row `p`, whatever `c`. (The row forms `[a] → [1, a]` and
  `[1, b] → [a, b]` are the library's `shapeCast_a_1a_apply` and `broadcastTo_1b_ab_apply`.) Stated for every
  extent and every element type.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.OutputBlock.lean ====
/-
  One grid point of the second dense stage: the value the body stores, read at row `p` and class `q` of the
  2048 × 47 block, is the second-layer row function (logits, then the logarithmic softmax) of row `p` of the two
  input blocks.

  The stored value is cut in two. The logits block is the sum of two matrix products and a bias row broadcast down
  the rows; at `(p, j)` each product is a sum over the 256 hidden features of row `p` of its left factor, so the
  entry is the specification's logit `j` of row `p`. The rest is the logarithmic softmax of that block along its
  rows: the row's maximum (a fold of `max` from the bottom element) laid out as a column and spread over the classes,
  taken away from every logit; then the logarithm of the row's sum of exponentials, again as a column spread over the
  classes, taken away in turn. Read at `(p, q)` this is the specification's logarithmic softmax of row `p` at `q`.
-/
import proofs.«151406_j5033701671208_1_alg».proof.Proof.Gen.KernelIdeal.Skeleton
import proofs.«151406_j5033701671208_1_alg».proof.Proof.Spec
import proofs.«151406_j5033701671208_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Sage

open Idealize.ShloMosaic Idealize.ShloMosaic.ValueIdx Cert.KernelIdeal Cert.KernelIdeal.Gen Cert.Sage

/-! ## The matrix product at an index -/

/-- The left operand's row coordinate is the output's row. -/
private theorem lhs_axis0 (i : S2048x47.Idx) (c : Cert.KernelIdeal.dot_S2048x256_S256x47_S2048x47_1_0_0_1_n_n.contr.Idx) :
    (Cert.KernelIdeal.dot_S2048x256_S256x47_S2048x47_1_0_0_1_n_n.lhsIdx i c 0).val = (i 0).val := by
  unfold DotDims.lhsIdx
  rw [dif_neg (show ¬(0 : Fin S2048x256.rank) ∈ Cert.KernelIdeal.dot_S2048x256_S256x47_S2048x47_1_0_0_1_n_n.lhsBatch by decide), dif_pos (show (0 : Fin S2048x256.rank) ∈ Cert.KernelIdeal.dot_S2048x256_S256x47_S2048x47_1_0_0_1_n_n.lhsNonContracting by decide)]
  rfl

/-- The left operand's column coordinate is the contraction position. -/
private theorem lhs_axis1 (i : S2048x47.Idx) (c : Cert.KernelIdeal.dot_S2048x256_S256x47_S2048x47_1_0_0_1_n_n.contr.Idx) :
    (Cert.KernelIdeal.dot_S2048x256_S256x47_S2048x47_1_0_0_1_n_n.lhsIdx i c 1).val = (c ⟨0, by decide⟩).val :=
  Cert.KernelIdeal.dot_S2048x256_S256x47_S2048x47_1_0_0_1_n_n.lhsIdx_val_of_single rfl i c

/-- The right operand's row coordinate is the contraction position. -/
private theorem rhs_axis0 (i : S2048x47.Idx) (c : Cert.KernelIdeal.dot_S2048x256_S256x47_S2048x47_1_0_0_1_n_n.contr.Idx) :
    (Cert.KernelIdeal.dot_S2048x256_S256x47_S2048x47_1_0_0_1_n_n.rhsIdx i c 0).val = (c ⟨0, by decide⟩).val :=
  Cert.KernelIdeal.dot_S2048x256_S256x47_S2048x47_1_0_0_1_n_n.rhsIdx_val_of_single rfl i c

/-- The right operand's column coordinate is the output's column. -/
private theorem rhs_axis1 (i : S2048x47.Idx) (c : Cert.KernelIdeal.dot_S2048x256_S256x47_S2048x47_1_0_0_1_n_n.contr.Idx) :
    (Cert.KernelIdeal.dot_S2048x256_S256x47_S2048x47_1_0_0_1_n_n.rhsIdx i c 1).val = (i 1).val := by
  unfold DotDims.rhsIdx
  rw [dif_neg (show ¬(1 : Fin S256x47.rank) ∈ Cert.KernelIdeal.dot_S2048x256_S256x47_S2048x47_1_0_0_1_n_n.rhsBatch by decide), dif_pos (show (1 : Fin S256x47.rank) ∈ Cert.KernelIdeal.dot_S2048x256_S256x47_S2048x47_1_0_0_1_n_n.rhsNonContracting by decide)]
  rfl

/-- A product into a zero block, read at `(p, j)`: the sum over the 256 contraction positions `k` of the left
    factor at `(p, k)` times the right factor at `(k, j)`. -/
private theorem matmul_apply_at (l : FVec Ideal S2048x256 .bf16) (r : FVec Ideal S256x47 .bf16) (p : Fin 2048) (j : Fin 47) :
    matmul Cert.KernelIdeal.dot_S2048x256_S256x47_S2048x47_1_0_0_1_n_n none l r (constant (F := Ideal) S2048x47 .f32 0x00000000#32) (ix2 p j)
      = ∑ k : Fin 256, l (ix2 p k) * r (ix2 k j) := by
  simp only [matmul]
  rw [Ideal.matmul_constant_zero_apply, ← Equiv.sum_comp (ValueIdx.contrEquiv1 Cert.KernelIdeal.dot_S2048x256_S256x47_S2048x47_1_0_0_1_n_n 256 rfl rfl).symm]
  refine Finset.sum_congr rfl fun k _ => ?_
  have hk := ValueIdx.contrEquiv1_symm_val Cert.KernelIdeal.dot_S2048x256_S256x47_S2048x47_1_0_0_1_n_n 256 rfl rfl k
  have el : Cert.KernelIdeal.dot_S2048x256_S256x47_S2048x47_1_0_0_1_n_n.lhsIdx (ix2 p j) ((ValueIdx.contrEquiv1 Cert.KernelIdeal.dot_S2048x256_S256x47_S2048x47_1_0_0_1_n_n 256 rfl rfl).symm k) = ix2 p k := funext fun a => Fin.ext (by
    match a with
    | ⟨0, _⟩ => exact lhs_axis0 _ _
    | ⟨1, _⟩ => exact (lhs_axis1 _ _).trans hk)
  have er : Cert.KernelIdeal.dot_S2048x256_S256x47_S2048x47_1_0_0_1_n_n.rhsIdx (ix2 p j) ((ValueIdx.contrEquiv1 Cert.KernelIdeal.dot_S2048x256_S256x47_S2048x47_1_0_0_1_n_n 256 rfl rfl).symm k) = ix2 k j := funext fun a => Fin.ext (by
    match a with
    | ⟨0, _⟩ => exact (rhs_axis0 _ _).trans hk
    | ⟨1, _⟩ => exact rhs_axis1 _ _)
  rw [el, er]

/-! ## The two parts of the stored value -/

/-- The logits block: the two products, added, plus the bias row spread down the rows. -/
private def logitsVec (v0 v3 : FVec Ideal S2048x256 .f32) (v6 v8 : FVec Ideal S256x47 .f32) (v10 : FVec Ideal S47 .f32) :
    FVec Ideal S2048x47 .f32 :=
  addf
    (addf
      (matmul Cert.KernelIdeal.dot_S2048x256_S256x47_S2048x47_1_0_0_1_n_n none
        (truncf .bf16 (shapeCast S2048x256 v0 shapeCasts_S2048x256_S2048x256) bitsLt_bf16_f32) (truncf .bf16 v6 bitsLt_bf16_f32)
        (constant (F := Ideal) S2048x47 .f32 0x00000000#32))
      (matmul Cert.KernelIdeal.dot_S2048x256_S256x47_S2048x47_1_0_0_1_n_n none
        (truncf .bf16 (shapeCast S2048x256 v3 shapeCasts_S2048x256_S2048x256) bitsLt_bf16_f32) (truncf .bf16 v8 bitsLt_bf16_f32)
        (constant (F := Ideal) S2048x47 .f32 0x00000000#32)))
    (broadcastTo S2048x47 (shapeCast S1x47 v10 shapeCasts_S47_S1x47) broadcasts_S1x47_S2048x47)

/-- Each row's maximum, as a column spread over the 47 classes. -/
private def rowMaxBlock (z : FVec Ideal S2048x47 .f32) : FVec Ideal S2048x47 .f32 :=
  broadcastTo S2048x47
    (shapeCast S2048x1 (multiReduction (F := Ideal) .maximumf [1] S2048 z 0xFF800000#32 reduces_S2048x47_S2048 (.inl rfl) rfl)
      shapeCasts_S2048_S2048x1)
    broadcasts_S2048x1_S2048x47

/-- The logarithm of each row's sum of exponentials, as a column spread over the 47 classes. -/
private def logSumBlock (y : FVec Ideal S2048x47 .f32) : FVec Ideal S2048x47 .f32 :=
  broadcastTo S2048x47
    (log (shapeCast S2048x1 (multiReduction (F := Ideal) .add [1] S2048 (exp y) 0x00000000#32 reduces_S2048x47_S2048 (.inl rfl) rfl)
      shapeCasts_S2048_S2048x1))
    broadcasts_S2048x1_S2048x47

/-- The logarithmic softmax along the rows of a block. -/
private def softmaxBlock (z : FVec Ideal S2048x47 .f32) : FVec Ideal S2048x47 .f32 :=
  subf (subf z (rowMaxBlock z)) (logSumBlock (subf z (rowMaxBlock z)))

/-- The stored value is the logarithmic softmax of the logits block. -/
private theorem pay_eq (v0 v3 : FVec Ideal S2048x256 .f32) (v6 v8 : FVec Ideal S256x47 .f32) (v10 : FVec Ideal S47 .f32) :
    k1_pay1 (F := Ideal) v0 v3 v6 v8 v10 = softmaxBlock (logitsVec v0 v3 v6 v8 v10) := rfl

/-! ## The logits -/

/-- Entry `(p, j)` of the logits block is logit `j` of row `p`. -/
private theorem logitsVec_apply (v0 v3 : FVec Ideal S2048x256 .f32) (v6 v8 : FVec Ideal S256x47 .f32) (v10 : FVec Ideal S47 .f32)
    (p : Fin 2048) (j : Fin 47) :
    logitsVec v0 v3 v6 v8 v10 (ix2 p j) = logitRow (fun k => v0 (ix2 p k)) (fun k => v3 (ix2 p k)) v6 v8 v10 j := by
  unfold logitsVec logitRow
  rw [addf_apply, addf_apply, matmul_apply_at, matmul_apply_at, shapeCast_self, shapeCast_self]
  refine congrArg₂ (· + ·) rfl ?_
  refine (broadcastTo_1b_ab_apply _ _ p j).trans ?_
  exact shapeCast_a_1a_apply v10 _ 0 j

/-! ## The logarithmic softmax along a row -/

/-- The index a reduction over the classes reads: row `p`, class `k`. -/
private theorem lift_row (p : Fin 2048) (k : Fin 47) :
    reduces_S2048x47_S2048.lift (ix1 p) k = ix2 p k :=
  funext fun a => Fin.ext (by
    match a with
    | ⟨0, _⟩ => rfl
    | ⟨1, _⟩ => rfl)

/-- The maximum over the classes, read at row `p`, is the fold of `max` from the bottom element over that row. -/
private theorem rowMax_apply (z : FVec Ideal S2048x47 .f32) (p : Fin 2048) :
    multiReduction (F := Ideal) .maximumf [1] S2048 z 0xFF800000#32 reduces_S2048x47_S2048 (.inl rfl) rfl (ix1 p)
      = rowMax (fun k => z (ix2 p k)) := by
  refine (Ideal.multiReduction_maximumf_single z 0xFF800000#32 reduces_S2048x47_S2048 (.inl rfl) rfl (ix1 p)).trans ?_
  unfold rowMax
  rw [Ideal.ofBits_def, ofBits_neg_inf]
  refine congrArg ((Finset.univ : Finset (Fin 47)).fold max (⊥ : EReal)) (funext fun k => ?_)
  exact congrArg z (lift_row p k)

/-- The row-maximum block at `(p, j)` is the maximum of row `p`, whatever `j`. -/
private theorem rowMaxBlock_apply (z : FVec Ideal S2048x47 .f32) (p : Fin 2048) (j : Fin 47) :
    rowMaxBlock z (ix2 p j) = rowMax (fun k => z (ix2 p k)) := by
  unfold rowMaxBlock
  refine (Cert.LibColumn.broadcastTo_a1_ab_apply _ _ p j).trans ?_
  refine (Cert.LibColumn.shapeCast_a_a1_apply _ _ p 0).trans ?_
  exact rowMax_apply z p

/-- The sum over the classes of the exponentials, read at row `p`. -/
private theorem rowSum_apply (y : FVec Ideal S2048x47 .f32) (p : Fin 2048) :
    multiReduction (F := Ideal) .add [1] S2048 (exp y) 0x00000000#32 reduces_S2048x47_S2048 (.inl rfl) rfl (ix1 p)
      = ∑ k : Fin 47, Ideal.exp (y (ix2 p k)) := by
  refine (Ideal.multiReduction_add_single (exp y) 0x00000000#32 reduces_S2048x47_S2048 (.inl rfl) rfl (ix1 p)).trans ?_
  refine Finset.sum_congr rfl fun k _ => ?_
  exact congrArg (fun i => Ideal.exp (y i)) (lift_row p k)

/-- The logarithm-of-sum block at `(p, j)` is the logarithm of row `p`'s sum of exponentials, whatever `j`. -/
private theorem logSumBlock_apply (y : FVec Ideal S2048x47 .f32) (p : Fin 2048) (j : Fin 47) :
    logSumBlock y (ix2 p j) = Ideal.log (∑ k : Fin 47, Ideal.exp (y (ix2 p k))) := by
  unfold logSumBlock
  refine (Cert.LibColumn.broadcastTo_a1_ab_apply _ _ p j).trans ?_
  show FloatOps.log (shapeCast S2048x1 _ shapeCasts_S2048_S2048x1 (ix2 p (0 : Fin 1))) = _
  rw [Ideal.log_def]
  refine congrArg Ideal.log ?_
  refine (Cert.LibColumn.shapeCast_a_a1_apply _ _ p 0).trans ?_
  exact rowSum_apply y p

/-- The softmax block at `(p, q)` is the logarithmic softmax of row `p` at class `q`. -/
private theorem softmaxBlock_apply (z : FVec Ideal S2048x47 .f32) (p : Fin 2048) (q : Fin 47) :
    softmaxBlock z (ix2 p q) = logSoftmaxRow (fun k => z (ix2 p k)) q := by
  unfold softmaxBlock logSoftmaxRow
  rw [subf_apply, subf_apply, logSumBlock_apply, rowMaxBlock_apply]
  refine congrArg (fun s => (z (ix2 p q) - rowMax (fun k => z (ix2 p k))) - Ideal.log s) ?_
  refine Finset.sum_congr rfl fun k _ => ?_
  rw [subf_apply, rowMaxBlock_apply]

/-- The stored block at `(p, q)`: the logarithmic softmax, at class `q`, of the logits `(a · Wl + x · Wr) + b` of row `p`
    of the neighbour-mean block `v0` and of the hidden-feature block `v3`. -/
theorem output_block_apply (v0 v3 : Vec Ideal S2048x256 .f32) (v6 v8 : Vec Ideal S256x47 .f32) (v10 : Vec Ideal S47 .f32)
    (p : Fin 2048) (q : Fin 47) :
    k1_pay1 (F := Ideal) v0 v3 v6 v8 v10 (ix2 p q)
      = classRow (fun k => v0 (ix2 p k)) (fun k => v3 (ix2 p k)) v6 v8 v10 q := by
  unfold classRow
  refine (congrFun (pay_eq v0 v3 v6 v8 v10) (ix2 p q)).trans ?_
  refine (softmaxBlock_apply _ p q).trans ?_
  exact congrArg (fun l => logSoftmaxRow l q) (funext fun j => logitsVec_apply v0 v3 v6 v8 v10 p j)

end Cert.KernelIdeal.Sage

end
-- ==== Proof.SpecArrays.lean ====
/-
  The two dense stages as functions of whole arrays: entry `(r, q)` of a stage's output is the stage's row function
  of row `r` of the neighbour means and of row `r` of the node features. The first stage maps 40960 rows of 100
  features to 256 hidden features; the second maps 4096 rows of 256 hidden features to the 47 class scores.
-/
import proofs.«151406_j5033701671208_1_alg».proof.Proof.Spec

noncomputable section

namespace Cert.Sage

open Idealize.ShloMosaic Idealize.ShloMosaic.ValueIdx

/-- The first stage on whole arrays. -/
def hiddenArr (A X : (⟨2, ![40960, 100]⟩ : Shape).Idx → EReal) (Wl Wr : (⟨2, ![100, 256]⟩ : Shape).Idx → EReal)
    (b : (⟨1, ![256]⟩ : Shape).Idx → EReal) : (⟨2, ![40960, 256]⟩ : Shape).Idx → EReal :=
  fun i => hiddenRow (fun k => A (ix2 (i 0) k)) (fun k => X (ix2 (i 0) k)) Wl Wr b (i 1)

/-- The second stage on whole arrays. -/
def classArr (A X : (⟨2, ![4096, 256]⟩ : Shape).Idx → EReal) (Wl Wr : (⟨2, ![256, 47]⟩ : Shape).Idx → EReal)
    (b : (⟨1, ![47]⟩ : Shape).Idx → EReal) : (⟨2, ![4096, 47]⟩ : Shape).Idx → EReal :=
  fun i => classRow (fun k => A (ix2 (i 0) k)) (fun k => X (ix2 (i 0) k)) Wl Wr b (i 1)

/-- An entry of the first stage at explicit coordinates. -/
theorem hiddenArr_apply (A X : (⟨2, ![40960, 100]⟩ : Shape).Idx → EReal) (Wl Wr : (⟨2, ![100, 256]⟩ : Shape).Idx → EReal)
    (b : (⟨1, ![256]⟩ : Shape).Idx → EReal) (r : Fin 40960) (q : Fin 256) :
    hiddenArr A X Wl Wr b (ix2 r q) = hiddenRow (fun k => A (ix2 r k)) (fun k => X (ix2 r k)) Wl Wr b q := rfl

/-- An entry of the second stage at explicit coordinates. -/
theorem classArr_apply (A X : (⟨2, ![4096, 256]⟩ : Shape).Idx → EReal) (Wl Wr : (⟨2, ![256, 47]⟩ : Shape).Idx → EReal)
    (b : (⟨1, ![47]⟩ : Shape).Idx → EReal) (r : Fin 4096) (q : Fin 47) :
    classArr A X Wl Wr b (ix2 r q) = classRow (fun k => A (ix2 r k)) (fun k => X (ix2 r k)) Wl Wr b q := rfl

end Cert.Sage

end
-- ==== Proof.KernelArrays.lean ====
/-
  Each dense stage's output array after its pallas_call, as one function of the arrays the call finds.

  Grid point `t` of the first stage reads rows `4096 t … 4096 t + 4095` of the neighbour means and of the node
  features, and the whole of the two weight matrices and the bias; what it writes back is rows `4096 t …` of the
  first-stage function of the whole arrays, because an output row depends on the same row of the inputs only. The ten
  points' blocks cover the 40960 rows (row `r` lies in block `r / 4096`), so the array ends holding that function.
  The second stage likewise with two blocks of 2048 rows.
-/
import proofs.«151406_j5033701671208_1_alg».proof.Proof.Gen.KernelIdeal.Frame
import proofs.«151406_j5033701671208_1_alg».proof.Proof.HiddenBlock
import proofs.«151406_j5033701671208_1_alg».proof.Proof.OutputBlock
import proofs.«151406_j5033701671208_1_alg».proof.Proof.SpecArrays
import Idealize.ShloMosaic.Lib.Pipeline.Value
import Idealize.ShloMosaic.Lib.ValueIdx

set_option maxRecDepth 16384

noncomputable section

namespace Cert.KernelIdeal.Sage

open Idealize.ShloMosaic Idealize.ShloMosaic.TcCoe Idealize.ShloMosaic.ValueIdx Idealize.SL.Sem
open Cert.KernelIdeal Cert.KernelIdeal.Gen Cert.Sage
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-! ## The first stage -/

/-- The printed index maps over the ten grid points: the two row-tiled inputs move with the output's row block, the
    weights and the bias stay at block zero, and the output's row block is the point's number. -/
theorem index_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every row block of the output is some point's. -/
theorem index_onto0 : ∀ q0 : Fin 10, ∃ t : Fin cfg0.N, win0_5.index t = ![q0.val, 0] :=
  (by decide +kernel : ∀ q0 : Fin 10, ∃ t : Fin grid0.N, win0_5.index t = ![q0.val, 0])

/-- What point `t` writes back is block `t` of the first-stage function of the arrays as the call finds them. -/
theorem flushed0 (c : Dev nD) (t : Fin cfg0.N) :
    (dat0 (F := Ideal) V c).flushed 5 t = ((cfg0.win 5).blk t).view.read (Elt Ideal)
      (hiddenArr (V c main_v17) (V c main_v18) (V c main_arg1) (V c main_arg3) (V c main_arg2)) := by
  show (cfg0.win 5).cut (grid0.coords t) ((dat0 (F := Ideal) V c).after 5 t) = _
  rw [after0_5]
  unfold out0_5
  rw [View.canon_unit_zero zero2]
  simp only [View.ld_unit_zero (S := S4096x100) zero2, View.ld_unit_zero (S := S100x256) zero2, View.ld_unit_zero (S := S256) zero1]
  funext j
  obtain ⟨p, q, rfl⟩ : ∃ (p : Fin 4096) (q : Fin 256), j = ix2 p q := ⟨j 0, j 1, eq_ix2 j⟩
  obtain ⟨e00, e01, e10, e11, e20, e21, e30, e40, e41, e51, -⟩ := index_facts0 t
  show k0_pay1 (F := Ideal) (iblk0 V c 0 t) (iblk0 V c 1 t) (iblk0 V c 2 t) (iblk0 V c 4 t) (iblk0 V c 3 t) (ix2 p q)
      = hiddenArr (V c main_v17) (V c main_v18) (V c main_arg1) (V c main_arg3) (V c main_arg2)
          (((cfg0.win 5).blk t).view.emb (ix2 p q))
  refine (hidden_block_apply (iblk0 V c 0 t) (iblk0 V c 1 t) (iblk0 V c 2 t) (iblk0 V c 4 t) (iblk0 V c 3 t) p q).trans ?_
  -- the row and the column of the array index the output's rectangle gives the block index `(p, q)`
  have hrow : ((((cfg0.win 5).blk t).view.emb (ix2 p q)) 0).val = win0_5.index t (0 : Fin 2) * 4096 + 1 * p.val := rfl
  have hcol : (((cfg0.win 5).blk t).view.emb (ix2 p q)) 1 = q := Fin.ext (by
    show win0_5.index t (1 : Fin 2) * 256 + 1 * q.val = q.val
    rw [e51]; omega)
  -- the neighbour-mean block is rows `4096 t …` of the neighbour means
  have hA : ∀ k : Fin 100, iblk0 V c 0 t (ix2 p k) = V c main_v17 (ix2 ((((cfg0.win 5).blk t).view.emb (ix2 p q)) 0) k) := fun k => by
    unfold iblk0
    rw [View.read_apply]
    show V c main_v17 _ = V c main_v17 _
    congr 1
    funext a
    apply Fin.ext
    match a with
    | ⟨0, _⟩ => show win0_0.index t (0 : Fin 2) * 4096 + 1 * p.val = win0_5.index t (0 : Fin 2) * 4096 + 1 * p.val; rw [e00]
    | ⟨1, _⟩ => show win0_0.index t (1 : Fin 2) * 100 + 1 * k.val = k.val; rw [e01]; omega
  -- the node-feature block is the same rows of the node features
  have hX : ∀ k : Fin 100, iblk0 V c 1 t (ix2 p k) = V c main_v18 (ix2 ((((cfg0.win 5).blk t).view.emb (ix2 p q)) 0) k) := fun k => by
    unfold iblk0
    rw [View.read_apply]
    show V c main_v18 _ = V c main_v18 _
    congr 1
    funext a
    apply Fin.ext
    match a with
    | ⟨0, _⟩ => show win0_1.index t (0 : Fin 2) * 4096 + 1 * p.val = win0_5.index t (0 : Fin 2) * 4096 + 1 * p.val; rw [e10]
    | ⟨1, _⟩ => show win0_1.index t (1 : Fin 2) * 100 + 1 * k.val = k.val; rw [e11]; omega
  -- the weight and bias blocks are the whole arrays
  have hWl : (iblk0 V c 2 t : S100x256.Idx → EReal) = V c main_arg1 := funext fun x => by
    unfold iblk0
    rw [View.read_apply]
    show V c main_arg1 _ = V c main_arg1 x
    congr 1
    funext a
    apply Fin.ext
    match a with
    | ⟨0, _⟩ => show win0_2.index t (0 : Fin 2) * 100 + 1 * (x 0).val = (x 0).val; rw [e20]; omega
    | ⟨1, _⟩ => show win0_2.index t (1 : Fin 2) * 256 + 1 * (x 1).val = (x 1).val; rw [e21]; omega
  have hWr : (iblk0 V c 4 t : S100x256.Idx → EReal) = V c main_arg3 := funext fun x => by
    unfold iblk0
    rw [View.read_apply]
    show V c main_arg3 _ = V c main_arg3 x
    congr 1
    funext a
    apply Fin.ext
    match a with
    | ⟨0, _⟩ => show win0_4.index t (0 : Fin 2) * 100 + 1 * (x 0).val = (x 0).val; rw [e40]; omega
    | ⟨1, _⟩ => show win0_4.index t (1 : Fin 2) * 256 + 1 * (x 1).val = (x 1).val; rw [e41]; omega
  have hb : (iblk0 V c 3 t : S256.Idx → EReal) = V c main_arg2 := funext fun x => by
    unfold iblk0
    rw [View.read_apply]
    show V c main_arg2 _ = V c main_arg2 x
    congr 1
    funext a
    apply Fin.ext
    match a with
    | ⟨0, _⟩ => show win0_3.index t (0 : Fin 1) * 256 + 1 * (x 0).val = (x 0).val; rw [e30]; omega
  have h1 : (fun k : Fin 100 => iblk0 V c 0 t (ix2 p k)) = fun k => V c main_v17 (ix2 ((((cfg0.win 5).blk t).view.emb (ix2 p q)) 0) k) := funext hA
  have h2 : (fun k : Fin 100 => iblk0 V c 1 t (ix2 p k)) = fun k => V c main_v18 (ix2 ((((cfg0.win 5).blk t).view.emb (ix2 p q)) 0) k) := funext hX
  show hiddenRow _ _ _ _ _ q
      = hiddenRow (fun k => V c main_v17 (ix2 ((((cfg0.win 5).blk t).view.emb (ix2 p q)) 0) k))
          (fun k => V c main_v18 (ix2 ((((cfg0.win 5).blk t).view.emb (ix2 p q)) 0) k))
          (V c main_arg1) (V c main_arg3) (V c main_arg2) ((((cfg0.win 5).blk t).view.emb (ix2 p q)) 1)
  rw [h1, h2, hWl, hWr, hb, hcol]

/-- An index of the first-stage output lies in point `t`'s block iff each coordinate lies in the block's range. -/
theorem mem_blk0 (t : Fin cfg0.N) (i : S40960x256.Idx) :
    i ∈ ((cfg0.win 5).blk t).view.set ↔ ∀ a : Fin 2, win0_5.index t a * S4096x256.size a ≤ (i a).val ∧ (i a).val < win0_5.index t a * S4096x256.size a + S4096x256.size a := by
  show i ∈ ((View.whole main_v19).slice (win0_5.rect t)).set ↔ _
  rw [View.set_slice_whole, Rect.mem_set_unit]
  exact Iff.rfl

/-- Row `r` of the output lies in the block of point `r / 4096`: the ten blocks cover the array. -/
theorem cover0 (i : S40960x256.Idx) : ∃ t : Fin cfg0.N, (cfg0.win 5).flush t = true ∧ i ∈ ((cfg0.win 5).blk t).view.set := by
  have hi0 : (i 0).val < 40960 := (i 0).isLt
  have hi1 : (i 1).val < 256 := (i 1).isLt
  obtain ⟨t, ht⟩ := index_onto0 ⟨(i 0).val / 4096, by omega⟩
  have q0 : win0_5.index t (0 : Fin 2) = (i 0).val / 4096 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 4096 ≤ (i 0).val ∧ (i 0).val < win0_5.index t (0 : Fin 2) * 4096 + 4096; omega
  | ⟨1, _⟩ => show win0_5.index t (1 : Fin 2) * 256 ≤ (i 1).val ∧ (i 1).val < win0_5.index t (1 : Fin 2) * 256 + 256; omega

/-- After the first pallas_call its output array holds the first-stage function of the arrays the call found. -/
theorem hidden_array (c : Dev nD) :
    (dat0 (F := Ideal) V c).arrAt 5 cfg0.N
      = hiddenArr (V c main_v17) (V c main_v18) (V c main_arg1) (V c main_arg3) (V c main_arg2) :=
  (dat0 (F := Ideal) V c).arrAt_eq_of_cover 5 _ (fun t _ => flushed0 V c t) cover0

/-! ## The second stage -/

/-- The printed index maps over the two grid points, as for the first stage. -/
theorem index_facts1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (1 : Fin 2) = 0 ∧ win1_5.index t (0 : Fin 2) ≤ 1 :=
  (by decide +kernel : ∀ t : Fin grid1.N, _)

/-- Every row block of the output is some point's. -/
theorem index_onto1 : ∀ q0 : Fin 2, ∃ t : Fin cfg1.N, win1_5.index t = ![q0.val, 0] :=
  (by decide +kernel : ∀ q0 : Fin 2, ∃ t : Fin grid1.N, win1_5.index t = ![q0.val, 0])

/-- What point `t` writes back is block `t` of the second-stage function of the arrays as the call finds them. -/
theorem flushed1 (c : Dev nD) (t : Fin cfg1.N) :
    (dat1 (F := Ideal) V c).flushed 5 t = ((cfg1.win 5).blk t).view.read (Elt Ideal)
      (classArr (V c main_v37) (V c main_v38) (V c main_arg4) (V c main_arg6) (V c main_arg5)) := by
  show (cfg1.win 5).cut (grid1.coords t) ((dat1 (F := Ideal) V c).after 5 t) = _
  rw [after1_5]
  unfold out1_5
  rw [View.canon_unit_zero zero2]
  simp only [View.ld_unit_zero (S := S2048x256) zero2, View.ld_unit_zero (S := S256x47) zero2, View.ld_unit_zero (S := S47) zero1]
  funext j
  obtain ⟨p, q, rfl⟩ : ∃ (p : Fin 2048) (q : Fin 47), j = ix2 p q := ⟨j 0, j 1, eq_ix2 j⟩
  obtain ⟨e00, e01, e10, e11, e20, e21, e30, e40, e41, e51, -⟩ := index_facts1 t
  show k1_pay1 (F := Ideal) (iblk1 V c 0 t) (iblk1 V c 1 t) (iblk1 V c 2 t) (iblk1 V c 4 t) (iblk1 V c 3 t) (ix2 p q)
      = classArr (V c main_v37) (V c main_v38) (V c main_arg4) (V c main_arg6) (V c main_arg5)
          (((cfg1.win 5).blk t).view.emb (ix2 p q))
  refine (output_block_apply (iblk1 V c 0 t) (iblk1 V c 1 t) (iblk1 V c 2 t) (iblk1 V c 4 t) (iblk1 V c 3 t) p q).trans ?_
  have hcol : (((cfg1.win 5).blk t).view.emb (ix2 p q)) 1 = q := Fin.ext (by
    show win1_5.index t (1 : Fin 2) * 47 + 1 * q.val = q.val
    rw [e51]; omega)
  -- the neighbour-mean block is rows `2048 t …` of the second layer's neighbour means
  have hA : ∀ k : Fin 256, iblk1 V c 0 t (ix2 p k) = V c main_v37 (ix2 ((((cfg1.win 5).blk t).view.emb (ix2 p q)) 0) k) := fun k => by
    unfold iblk1
    rw [View.read_apply]
    show V c main_v37 _ = V c main_v37 _
    congr 1
    funext a
    apply Fin.ext
    match a with
    | ⟨0, _⟩ => show win1_0.index t (0 : Fin 2) * 2048 + 1 * p.val = win1_5.index t (0 : Fin 2) * 2048 + 1 * p.val; rw [e00]
    | ⟨1, _⟩ => show win1_0.index t (1 : Fin 2) * 256 + 1 * k.val = k.val; rw [e01]; omega
  -- the hidden-feature block is the same rows of the hidden features
  have hX : ∀ k : Fin 256, iblk1 V c 1 t (ix2 p k) = V c main_v38 (ix2 ((((cfg1.win 5).blk t).view.emb (ix2 p q)) 0) k) := fun k => by
    unfold iblk1
    rw [View.read_apply]
    show V c main_v38 _ = V c main_v38 _
    congr 1
    funext a
    apply Fin.ext
    match a with
    | ⟨0, _⟩ => show win1_1.index t (0 : Fin 2) * 2048 + 1 * p.val = win1_5.index t (0 : Fin 2) * 2048 + 1 * p.val; rw [e10]
    | ⟨1, _⟩ => show win1_1.index t (1 : Fin 2) * 256 + 1 * k.val = k.val; rw [e11]; omega
  -- the weight and bias blocks are the whole arrays
  have hWl : (iblk1 V c 2 t : S256x47.Idx → EReal) = V c main_arg4 := funext fun x => by
    unfold iblk1
    rw [View.read_apply]
    show V c main_arg4 _ = V c main_arg4 x
    congr 1
    funext a
    apply Fin.ext
    match a with
    | ⟨0, _⟩ => show win1_2.index t (0 : Fin 2) * 256 + 1 * (x 0).val = (x 0).val; rw [e20]; omega
    | ⟨1, _⟩ => show win1_2.index t (1 : Fin 2) * 47 + 1 * (x 1).val = (x 1).val; rw [e21]; omega
  have hWr : (iblk1 V c 4 t : S256x47.Idx → EReal) = V c main_arg6 := funext fun x => by
    unfold iblk1
    rw [View.read_apply]
    show V c main_arg6 _ = V c main_arg6 x
    congr 1
    funext a
    apply Fin.ext
    match a with
    | ⟨0, _⟩ => show win1_4.index t (0 : Fin 2) * 256 + 1 * (x 0).val = (x 0).val; rw [e40]; omega
    | ⟨1, _⟩ => show win1_4.index t (1 : Fin 2) * 47 + 1 * (x 1).val = (x 1).val; rw [e41]; omega
  have hb : (iblk1 V c 3 t : S47.Idx → EReal) = V c main_arg5 := funext fun x => by
    unfold iblk1
    rw [View.read_apply]
    show V c main_arg5 _ = V c main_arg5 x
    congr 1
    funext a
    apply Fin.ext
    match a with
    | ⟨0, _⟩ => show win1_3.index t (0 : Fin 1) * 47 + 1 * (x 0).val = (x 0).val; rw [e30]; omega
  have h1 : (fun k : Fin 256 => iblk1 V c 0 t (ix2 p k)) = fun k => V c main_v37 (ix2 ((((cfg1.win 5).blk t).view.emb (ix2 p q)) 0) k) := funext hA
  have h2 : (fun k : Fin 256 => iblk1 V c 1 t (ix2 p k)) = fun k => V c main_v38 (ix2 ((((cfg1.win 5).blk t).view.emb (ix2 p q)) 0) k) := funext hX
  show classRow _ _ _ _ _ q
      = classRow (fun k => V c main_v37 (ix2 ((((cfg1.win 5).blk t).view.emb (ix2 p q)) 0) k))
          (fun k => V c main_v38 (ix2 ((((cfg1.win 5).blk t).view.emb (ix2 p q)) 0) k))
          (V c main_arg4) (V c main_arg6) (V c main_arg5) ((((cfg1.win 5).blk t).view.emb (ix2 p q)) 1)
  rw [h1, h2, hWl, hWr, hb, hcol]

/-- An index of the second-stage output lies in point `t`'s block iff each coordinate lies in the block's range. -/
theorem mem_blk1 (t : Fin cfg1.N) (i : S4096x47.Idx) :
    i ∈ ((cfg1.win 5).blk t).view.set ↔ ∀ a : Fin 2, win1_5.index t a * S2048x47.size a ≤ (i a).val ∧ (i a).val < win1_5.index t a * S2048x47.size a + S2048x47.size a := by
  show i ∈ ((View.whole main_v39).slice (win1_5.rect t)).set ↔ _
  rw [View.set_slice_whole, Rect.mem_set_unit]
  exact Iff.rfl

/-- Row `r` of the output lies in the block of point `r / 2048`: the two blocks cover the array. -/
theorem cover1 (i : S4096x47.Idx) : ∃ t : Fin cfg1.N, (cfg1.win 5).flush t = true ∧ i ∈ ((cfg1.win 5).blk t).view.set := by
  have hi0 : (i 0).val < 4096 := (i 0).isLt
  have hi1 : (i 1).val < 47 := (i 1).isLt
  obtain ⟨t, ht⟩ := index_onto1 ⟨(i 0).val / 2048, by omega⟩
  have q0 : win1_5.index t (0 : Fin 2) = (i 0).val / 2048 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 2048 ≤ (i 0).val ∧ (i 0).val < win1_5.index t (0 : Fin 2) * 2048 + 2048; omega
  | ⟨1, _⟩ => show win1_5.index t (1 : Fin 2) * 47 ≤ (i 1).val ∧ (i 1).val < win1_5.index t (1 : Fin 2) * 47 + 47; omega

/-- After the second pallas_call its output array holds the second-stage function of the arrays the call found. -/
theorem class_array (c : Dev nD) :
    (dat1 (F := Ideal) V c).arrAt 5 cfg1.N
      = classArr (V c main_v37) (V c main_v38) (V c main_arg4) (V c main_arg6) (V c main_arg5) :=
  (dat1 (F := Ideal) V c).arrAt_eq_of_cover 5 _ (fun t _ => flushed1 V c t) cover1

end Cert.KernelIdeal.Sage

end
-- ==== Proof.Glue.lean ====
/-
  The second layer's inputs as functions of the first layer's output `h`, in the reference's own operations: the mean
  over each target node's sampled neighbours of the rows of `h` (a gather by the source indices, two scatter-sums by
  the target indices, the quotient by the larger of the neighbour count and one), and the first 4096 rows of `h`.
  Both programs apply these same operations to their first layer's output; stating them once over a parameter lets
  the comparison rewrite `h` without opening them.
-/
import proofs.«151406_j5033701671208_1_alg».proof.Proof.RefRead

set_option maxRecDepth 16384

noncomputable section

namespace Cert.ReferenceIdeal.Sage

open Idealize.ShloMosaic Idealize.ShloMosaic.TcCoe Cert.ReferenceIdeal Cert.ReferenceIdeal.Gen Cert.ReferenceIdeal.ReadCopy

/-- The mean of the sampled neighbours' rows of `h`, per target node of the second layer. -/
def neighbourMean2 (h : (⟨S40960x256, .f32⟩ : BufTy).Contents (Elt Ideal)) (x9 x10 : (⟨S40960, .i32⟩ : BufTy).Contents (Elt Ideal)) : (⟨S4096x256, .f32⟩ : BufTy).Contents (Elt Ideal) :=
  Host.divf (F := Ideal) (φ := .f32)
    (Host.scatterAdd (F := Ideal) (φ := .f32) scatter_S4096x256_S40960x1_S40960x256_1_0_0_1 (val_main_v34 (F := Ideal)) (val_main_v35 (F := Ideal) x10)
      (Host.gather (α := Ideal .f32) gather_S40960x256_S40960x1_S40960x256_1_0_n_n_0_1_1256 h (val_main_v32 (F := Ideal) x9)))
    (val_main_v43 (F := Ideal) x10)

/-- The first 4096 rows of `h`: the second layer's target nodes' own features. -/
def targetRows2 (h : (⟨S40960x256, .f32⟩ : BufTy).Contents (Elt Ideal)) : (⟨S4096x256, .f32⟩ : BufTy).Contents (Elt Ideal) :=
  extractStridedSlice S4096x256 ![0, 0] h slices_S40960x256_S4096x256_0_0

/-- The reference's second-layer neighbour means are that function of its first layer's output. -/
theorem val_main_v44_eq (x0 : (⟨S1000000x100, .f32⟩ : BufTy).Contents (Elt Ideal)) (x1 : (⟨S100x256, .f32⟩ : BufTy).Contents (Elt Ideal)) (x2 : (⟨S256, .f32⟩ : BufTy).Contents (Elt Ideal))
    (x3 : (⟨S100x256, .f32⟩ : BufTy).Contents (Elt Ideal)) (x7 x8 : (⟨S1024000, .i32⟩ : BufTy).Contents (Elt Ideal)) (x9 x10 : (⟨S40960, .i32⟩ : BufTy).Contents (Elt Ideal)) :
    val_main_v44 (F := Ideal) x0 x1 x2 x3 x7 x8 x9 x10 = neighbourMean2 (val_main_v25 (F := Ideal) x0 x1 x2 x3 x7 x8) x9 x10 := rfl

/-- The reference's sliced hidden rows are that function of its first layer's output. -/
theorem val_main_v26_eq (x0 : (⟨S1000000x100, .f32⟩ : BufTy).Contents (Elt Ideal)) (x1 : (⟨S100x256, .f32⟩ : BufTy).Contents (Elt Ideal)) (x2 : (⟨S256, .f32⟩ : BufTy).Contents (Elt Ideal))
    (x3 : (⟨S100x256, .f32⟩ : BufTy).Contents (Elt Ideal)) (x7 x8 : (⟨S1024000, .i32⟩ : BufTy).Contents (Elt Ideal)) :
    val_main_v26 (F := Ideal) x0 x1 x2 x3 x7 x8 = targetRows2 (val_main_v25 (F := Ideal) x0 x1 x2 x3 x7 x8) := rfl

end Cert.ReferenceIdeal.Sage

end
-- ==== Proof.KernelValue.lean ====
/-
  The kernel program's result as a function of its arguments. Between the launch and the first pallas_call the host
  operations form the first layer's neighbour means and slice the first 40960 feature rows; the call leaves the
  first-stage function of those in its output array; the host operations then form the second layer's neighbour means
  and slice the first 4096 hidden rows, and the second call leaves the second-stage function of those in the result.
  The host operations are the reference's own, so each boundary's contents is stated with the reference's stages.
-/
import proofs.«151406_j5033701671208_1_alg».proof.Proof.KernelRun
import proofs.«151406_j5033701671208_1_alg».proof.Proof.KernelArrays
import proofs.«151406_j5033701671208_1_alg».proof.Proof.Glue
import Idealize.ShloMosaic.Lib.StableHlo.Run

set_option maxRecDepth 16384

noncomputable section

namespace Cert.KernelIdeal.Sage

open Idealize.ShloMosaic Idealize.ShloMosaic.TcCoe Idealize.SL.Sem Idealize.ShloMosaic.StableHlo
open Cert.KernelIdeal Cert.KernelIdeal.Gen Cert.Sage
open Cert.ReferenceIdeal.ReadCopy (val_main_v18 val_main_v0)
open Cert.ReferenceIdeal.Sage (neighbourMean2 targetRows2)

variable (m : (ℓ : Loc nD τ sig) → Buf (Elt Ideal) ℓ) (ρ : Dev nD → PrngReg)

/-! ## The first call's entry contents -/

/-- The first layer's neighbour means, as the first call finds them. -/
theorem entry0_mean (c : Dev nD) :
    V1 m ρ c main_v17 = val_main_v18 (F := Ideal) (m ((c : Thread nD τ).loc main_arg0)) (m ((c : Thread nD τ).loc main_arg7)) (m ((c : Thread nD τ).loc main_arg8)) := by
  show StableHlo.after hostOps0 (W0 m ρ c) (Proc.devRef .tc main_v17) = _
  after_results_simp
  rfl

/-- The first 40960 feature rows, as the first call finds them. -/
theorem entry0_rows (c : Dev nD) :
    V1 m ρ c main_v18 = val_main_v0 (F := Ideal) (m ((c : Thread nD τ).loc main_arg0)) := by
  show StableHlo.after hostOps0 (W0 m ρ c) (Proc.devRef .tc main_v18) = _
  after_results
  rfl

/-- The first layer's weights and bias reach the first call as launched. -/
theorem entry0_arg1 (c : Dev nD) : V1 m ρ c main_arg1 = m ((c : Thread nD τ).loc main_arg1) := by
  show StableHlo.after hostOps0 (W0 m ρ c) (Proc.devRef .tc main_arg1) = _
  after_results
theorem entry0_arg2 (c : Dev nD) : V1 m ρ c main_arg2 = m ((c : Thread nD τ).loc main_arg2) := by
  show StableHlo.after hostOps0 (W0 m ρ c) (Proc.devRef .tc main_arg2) = _
  after_results
theorem entry0_arg3 (c : Dev nD) : V1 m ρ c main_arg3 = m ((c : Thread nD τ).loc main_arg3) := by
  show StableHlo.after hostOps0 (W0 m ρ c) (Proc.devRef .tc main_arg3) = _
  after_results

/-- The first layer's output after the first call. -/
theorem hidden_value (c : Dev nD) :
    W2 m ρ c (Proc.devRef .tc main_v19)
      = hiddenArr (val_main_v18 (F := Ideal) (m ((c : Thread nD τ).loc main_arg0)) (m ((c : Thread nD τ).loc main_arg7)) (m ((c : Thread nD τ).loc main_arg8)))
          (val_main_v0 (F := Ideal) (m ((c : Thread nD τ).loc main_arg0)))
          (m ((c : Thread nD τ).loc main_arg1)) (m ((c : Thread nD τ).loc main_arg3)) (m ((c : Thread nD τ).loc main_arg2)) := by
  refine (W2_arr m ρ c 5).trans ((hidden_array (V1 m ρ) c).trans ?_)
  rw [entry0_mean, entry0_rows, entry0_arg1, entry0_arg2, entry0_arg3]

/-! ## The second call's entry contents -/

/-- The second layer's source and target indices are untouched by the first host stretch and the first call. -/
theorem boundary2_arg9 (c : Dev nD) : W2 m ρ c (Proc.devRef .tc main_arg9) = m ((c : Thread nD τ).loc main_arg9) := by
  refine (W2_of_ne m ρ c main_arg9 (by decide)).trans ?_
  show StableHlo.after hostOps0 (W0 m ρ c) (Proc.devRef .tc main_arg9) = _
  after_results
theorem boundary2_arg10 (c : Dev nD) : W2 m ρ c (Proc.devRef .tc main_arg10) = m ((c : Thread nD τ).loc main_arg10) := by
  refine (W2_of_ne m ρ c main_arg10 (by decide)).trans ?_
  show StableHlo.after hostOps0 (W0 m ρ c) (Proc.devRef .tc main_arg10) = _
  after_results

/-- Nor are the second layer's weights and bias. -/
theorem boundary2_arg4 (c : Dev nD) : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  after_results
theorem boundary2_arg5 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results
theorem boundary2_arg6 (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results

/-- The second layer's neighbour means, as the second call finds them: the mean over the sampled neighbours of the
    rows of the first call's output. -/
theorem entry1_mean (c : Dev nD) :
    V3 m ρ c main_v37 = neighbourMean2 (W2 m ρ c (Proc.devRef .tc main_v19)) (m ((c : Thread nD τ).loc main_arg9)) (m ((c : Thread nD τ).loc main_arg10)) := by
  show StableHlo.after hostOps1 (W2 m ρ c) (Proc.devRef .tc main_v37) = _
  after_results_simp
  rw [boundary2_arg9, boundary2_arg10]
  rfl

/-- The first 4096 rows of the first call's output, as the second call finds them. -/
theorem entry1_rows (c : Dev nD) : V3 m ρ c main_v38 = targetRows2 (W2 m ρ c (Proc.devRef .tc main_v19)) := by
  show StableHlo.after hostOps1 (W2 m ρ c) (Proc.devRef .tc main_v38) = _
  after_results
  rfl

/-- The second layer's weights and bias reach the second call as launched. -/
theorem entry1_arg4 (c : Dev nD) : V3 m ρ c main_arg4 = m ((c : Thread nD τ).loc main_arg4) := by
  show StableHlo.after hostOps1 (W2 m ρ c) (Proc.devRef .tc main_arg4) = _
  after_results
  exact boundary2_arg4 m ρ c
theorem entry1_arg5 (c : Dev nD) : V3 m ρ c main_arg5 = m ((c : Thread nD τ).loc main_arg5) := by
  show StableHlo.after hostOps1 (W2 m ρ c) (Proc.devRef .tc main_arg5) = _
  after_results
  exact boundary2_arg5 m ρ c
theorem entry1_arg6 (c : Dev nD) : V3 m ρ c main_arg6 = m ((c : Thread nD τ).loc main_arg6) := by
  show StableHlo.after hostOps1 (W2 m ρ c) (Proc.devRef .tc main_arg6) = _
  after_results
  exact boundary2_arg6 m ρ c

/-- The result buffer after the second call, as a function of the launch contents of the arguments. -/
theorem result_value (c : Dev nD) :
    W4 m ρ c (Proc.devRef .tc main_v39)
      = classArr
          (neighbourMean2 (hiddenArr (val_main_v18 (F := Ideal) (m ((c : Thread nD τ).loc main_arg0)) (m ((c : Thread nD τ).loc main_arg7)) (m ((c : Thread nD τ).loc main_arg8)))
            (val_main_v0 (F := Ideal) (m ((c : Thread nD τ).loc main_arg0)))
            (m ((c : Thread nD τ).loc main_arg1)) (m ((c : Thread nD τ).loc main_arg3)) (m ((c : Thread nD τ).loc main_arg2))) (m ((c : Thread nD τ).loc main_arg9)) (m ((c : Thread nD τ).loc main_arg10)))
          (targetRows2 (hiddenArr (val_main_v18 (F := Ideal) (m ((c : Thread nD τ).loc main_arg0)) (m ((c : Thread nD τ).loc main_arg7)) (m ((c : Thread nD τ).loc main_arg8)))
            (val_main_v0 (F := Ideal) (m ((c : Thread nD τ).loc main_arg0)))
            (m ((c : Thread nD τ).loc main_arg1)) (m ((c : Thread nD τ).loc main_arg3)) (m ((c : Thread nD τ).loc main_arg2))))
          (m ((c : Thread nD τ).loc main_arg4)) (m ((c : Thread nD τ).loc main_arg6)) (m ((c : Thread nD τ).loc main_arg5)) := by
  refine (W4_arr m ρ c 5).trans ((class_array (V3 m ρ) c).trans ?_)
  rw [entry1_mean, entry1_rows, entry1_arg4, entry1_arg5, entry1_arg6, hidden_value]

end Cert.KernelIdeal.Sage

end
-- ==== Proof.RefHidden.lean ====
/-
  The reference's first layer, read at row `r` and column `q`: the rectified `(a · Wl + b) + x · Wr` is the first-layer
  row function of row `r` of the neighbour means and of the first 40960 feature rows; the summands are reordered
  by commutativity and associativity of the sum.
-/
import proofs.«151406_j5033701671208_1_alg».proof.Proof.RefRead
import proofs.«151406_j5033701671208_1_alg».proof.Proof.Spec
import Idealize.ShloMosaic.Lib.ValueIdx
import Idealize.ShloMosaic.Lib.Pipeline.Value
import Idealize.ShloMosaic.PureOps.Ideal.Laws

noncomputable section

namespace Cert.ReferenceIdeal.Sage

open Idealize.ShloMosaic Idealize.ShloMosaic.ValueIdx Cert.ReferenceIdeal Cert.ReferenceIdeal.ReadCopy Cert.Sage

/-! ## The reference's index maps at `(r, q)`

  The two products read their left operand at `(r, k)` and their right operand at `(k, q)`; the bias, first laid out as one
  row and then repeated down the rows, is read at `q`. -/

/-- The first product's left operand is read at `(r, k)`. -/
private theorem lidx_v19_at (r : Fin 40960) (q : Fin 256) (k : Fin 100) : lidx_main_v19 (ix2 r q) k = ix2 r k :=
  funext fun a => Fin.ext (by match a with | ⟨0, _⟩ => rfl | ⟨1, _⟩ => rfl)

/-- The first product's right operand is read at `(k, q)`. -/
private theorem ridx_v19_at (r : Fin 40960) (q : Fin 256) (k : Fin 100) : ridx_main_v19 (ix2 r q) k = ix2 k q :=
  funext fun a => Fin.ext (by match a with | ⟨0, _⟩ => rfl | ⟨1, _⟩ => rfl)

/-- The second product's left operand is read at `(r, k)`. -/
private theorem lidx_v23_at (r : Fin 40960) (q : Fin 256) (k : Fin 100) : lidx_main_v23 (ix2 r q) k = ix2 r k :=
  funext fun a => Fin.ext (by match a with | ⟨0, _⟩ => rfl | ⟨1, _⟩ => rfl)

/-- The second product's right operand is read at `(k, q)`. -/
private theorem ridx_v23_at (r : Fin 40960) (q : Fin 256) (k : Fin 100) : ridx_main_v23 (ix2 r q) k = ix2 k q :=
  funext fun a => Fin.ext (by match a with | ⟨0, _⟩ => rfl | ⟨1, _⟩ => rfl)

/-- The bias is read at `q`, whatever the row. -/
private theorem bias_idx_at (r : Fin 40960) (q : Fin 256) : idx_main_v20 (idx_main_v21 (ix2 r q)) = ix1 q :=
  funext fun a => Fin.ext (by match a with | ⟨0, _⟩ => rfl)

/-- The rectified first-layer stage at `(r, q)`, from row `r` of the neighbour means and of the sliced features. -/
theorem hidden_apply (x0 : (⟨S1000000x100, .f32⟩ : BufTy).Contents (Elt Ideal)) (x1 : (⟨S100x256, .f32⟩ : BufTy).Contents (Elt Ideal)) (x2 : (⟨S256, .f32⟩ : BufTy).Contents (Elt Ideal))
    (x3 : (⟨S100x256, .f32⟩ : BufTy).Contents (Elt Ideal)) (x7 x8 : (⟨S1024000, .i32⟩ : BufTy).Contents (Elt Ideal)) (r : Fin 40960) (q : Fin 256) :
    val_main_v25 (F := Ideal) x0 x1 x2 x3 x7 x8 (ix2 r q)
      = hiddenRow (fun k => val_main_v18 (F := Ideal) x0 x7 x8 (ix2 r k)) (fun k => val_main_v0 (F := Ideal) x0 (ix2 r k)) x1 x3 x2 q := by
  -- Read the stage from the outside in: the maximum, the two additions, the two products, the bias's two layouts, the zero.
  rw [val_main_v25_apply, val_main_v24_apply, val_main_v22_apply, val_main_v19_apply, val_main_v21_apply, val_main_v20_apply,
    val_main_v23_apply, val_main_call0_v0_apply, val_main_call0_cst_apply]
  simp only [lidx_v19_at, ridx_v19_at, lidx_v23_at, ridx_v23_at, bias_idx_at, Ideal.maximumf_def, Ideal.addf_def, Ideal.ofBits_def,
    Ideal.ofBits_zero_f32]
  -- The reference adds the bias before the second product, the specification after it.
  rw [add_bias_comm]
  rfl

end Cert.ReferenceIdeal.Sage

end
-- ==== Proof.RefOutput.lean ====
/-
  The reference's second layer, read at row `r` and class `q`: the logarithmic softmax of `(a · Wl + b) + x · Wr` is
  the second-layer row function of row `r` of the neighbour means and of the first 4096 hidden rows. The reference
  takes the larger of negative infinity and the row's maximum, which is the maximum; the logits' summands are
  reordered by commutativity and associativity of the sum.
-/
import proofs.«151406_j5033701671208_1_alg».proof.Proof.RefRead
import proofs.«151406_j5033701671208_1_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.Sage

open Idealize.ShloMosaic Idealize.ShloMosaic.ValueIdx Cert.ReferenceIdeal Cert.ReferenceIdeal.ReadCopy Cert.Sage

/-! ## The logits -/

/-- The logit stage at `(r, j)`: the two products read as sums over the 256 hidden features of row `r`, the bias at `j`;
    the reference adds the bias before the second product, the specification after it. -/
private theorem logit_stage (x0 : (⟨S1000000x100, .f32⟩ : BufTy).Contents (Elt Ideal)) (x1 : (⟨S100x256, .f32⟩ : BufTy).Contents (Elt Ideal)) (x2 : (⟨S256, .f32⟩ : BufTy).Contents (Elt Ideal))
    (x3 : (⟨S100x256, .f32⟩ : BufTy).Contents (Elt Ideal)) (x4 : (⟨S256x47, .f32⟩ : BufTy).Contents (Elt Ideal)) (x5 : (⟨S47, .f32⟩ : BufTy).Contents (Elt Ideal)) (x6 : (⟨S256x47, .f32⟩ : BufTy).Contents (Elt Ideal))
    (x7 x8 : (⟨S1024000, .i32⟩ : BufTy).Contents (Elt Ideal)) (x9 x10 : (⟨S40960, .i32⟩ : BufTy).Contents (Elt Ideal)) (r : Fin 4096) (j : Fin 47) :
    val_main_v50 (F := Ideal) x0 x1 x2 x3 x4 x5 x6 x7 x8 x9 x10 (ix2 r j)
      = logitRow (fun k => val_main_v44 (F := Ideal) x0 x1 x2 x3 x7 x8 x9 x10 (ix2 r k))
          (fun k => val_main_v26 (F := Ideal) x0 x1 x2 x3 x7 x8 (ix2 r k)) x4 x6 x5 j := by
  rw [val_main_v50_apply, val_main_v48_apply, val_main_v45_apply, val_main_v49_apply, val_main_v47_apply, val_main_v46_apply]
  generalize val_main_v44 (F := Ideal) x0 x1 x2 x3 x7 x8 x9 x10 = A
  generalize val_main_v26 (F := Ideal) x0 x1 x2 x3 x7 x8 = X
  unfold logitRow
  rw [Ideal.addf_def, Ideal.addf_def]
  have hb : idx_main_v46 (idx_main_v47 (ix2 r j)) = ix1 j := funext fun a => Fin.ext (by match a with | ⟨0, _⟩ => rfl)
  refine Eq.trans ?_ (add_bias_comm _ _ _)
  refine congrArg₂ (· + ·) (congrArg₂ (· + ·) (Finset.sum_congr rfl fun k _ => ?_) (congrArg x5 hb)) (Finset.sum_congr rfl fun k _ => ?_)
  · exact congrArg₂ (· * ·)
      (congrArg A (show lidx_main_v45 (ix2 r j) k = ix2 r k from funext fun a => Fin.ext (by match a with | ⟨0, _⟩ => rfl | ⟨1, _⟩ => rfl)))
      (congrArg x4 (show ridx_main_v45 (ix2 r j) k = ix2 k j from funext fun a => Fin.ext (by match a with | ⟨0, _⟩ => rfl | ⟨1, _⟩ => rfl)))
  · exact congrArg₂ (· * ·)
      (congrArg X (show lidx_main_v49 (ix2 r j) k = ix2 r k from funext fun a => Fin.ext (by match a with | ⟨0, _⟩ => rfl | ⟨1, _⟩ => rfl)))
      (congrArg x6 (show ridx_main_v49 (ix2 r j) k = ix2 k j from funext fun a => Fin.ext (by match a with | ⟨0, _⟩ => rfl | ⟨1, _⟩ => rfl)))

/-! ## The logarithmic softmax along a row -/

/-- The row-maximum stage at `r`: the larger of the bottom element and the fold of `max` from the bottom element over the
    logits of row `r`, which is that fold. -/
private theorem rowMax_stage (x0 : (⟨S1000000x100, .f32⟩ : BufTy).Contents (Elt Ideal)) (x1 : (⟨S100x256, .f32⟩ : BufTy).Contents (Elt Ideal)) (x2 : (⟨S256, .f32⟩ : BufTy).Contents (Elt Ideal))
    (x3 : (⟨S100x256, .f32⟩ : BufTy).Contents (Elt Ideal)) (x4 : (⟨S256x47, .f32⟩ : BufTy).Contents (Elt Ideal)) (x5 : (⟨S47, .f32⟩ : BufTy).Contents (Elt Ideal)) (x6 : (⟨S256x47, .f32⟩ : BufTy).Contents (Elt Ideal))
    (x7 x8 : (⟨S1024000, .i32⟩ : BufTy).Contents (Elt Ideal)) (x9 x10 : (⟨S40960, .i32⟩ : BufTy).Contents (Elt Ideal)) (r : Fin 4096) :
    val_main_call1_v2 (F := Ideal) x0 x1 x2 x3 x4 x5 x6 x7 x8 x9 x10 (ix1 r)
      = rowMax (fun k => val_main_v50 (F := Ideal) x0 x1 x2 x3 x4 x5 x6 x7 x8 x9 x10 (ix2 r k)) := by
  rw [val_main_call1_v2_apply, val_main_call1_v1_apply, val_main_call1_cst_0_apply]
  unfold val_main_call1_v0
  generalize val_main_v50 (F := Ideal) x0 x1 x2 x3 x4 x5 x6 x7 x8 x9 x10 = Z
  rw [Ideal.maximumf_def, Ideal.ofBits_def, ofBits_neg_inf, max_bot_left]
  have hR : S4096x47.Reduces [1] S4096 := by decide
  refine Eq.trans (Host.reduce_eq_fold_single (FloatOps.maximumf (F := Ideal) (φ := .f32)) Z _ _ hR _ (ix1 r)) ?_
  unfold rowMax
  rw [val_main_call1_cst_apply, Ideal.ofBits_def, ofBits_neg_inf]
  show (Finset.univ : Finset (Fin 47)).fold max (⊥ : EReal) (fun k => Z (hR.lift (ix1 r) k))
      = (Finset.univ : Finset (Fin 47)).fold max (⊥ : EReal) (fun k => Z (ix2 r k))
  refine congrArg ((Finset.univ : Finset (Fin 47)).fold max (⊥ : EReal)) (funext fun k => congrArg Z ?_)
  exact funext fun a => Fin.ext (by match a with | ⟨0, _⟩ => rfl | ⟨1, _⟩ => rfl)

/-- The shifted logits at `(r, j)`: the logit less the maximum of row `r`. -/
private theorem shift_stage (x0 : (⟨S1000000x100, .f32⟩ : BufTy).Contents (Elt Ideal)) (x1 : (⟨S100x256, .f32⟩ : BufTy).Contents (Elt Ideal)) (x2 : (⟨S256, .f32⟩ : BufTy).Contents (Elt Ideal))
    (x3 : (⟨S100x256, .f32⟩ : BufTy).Contents (Elt Ideal)) (x4 : (⟨S256x47, .f32⟩ : BufTy).Contents (Elt Ideal)) (x5 : (⟨S47, .f32⟩ : BufTy).Contents (Elt Ideal)) (x6 : (⟨S256x47, .f32⟩ : BufTy).Contents (Elt Ideal))
    (x7 x8 : (⟨S1024000, .i32⟩ : BufTy).Contents (Elt Ideal)) (x9 x10 : (⟨S40960, .i32⟩ : BufTy).Contents (Elt Ideal)) (r : Fin 4096) (j : Fin 47) :
    val_main_call1_v5 (F := Ideal) x0 x1 x2 x3 x4 x5 x6 x7 x8 x9 x10 (ix2 r j)
      = val_main_v50 (F := Ideal) x0 x1 x2 x3 x4 x5 x6 x7 x8 x9 x10 (ix2 r j) - rowMax (fun k => val_main_v50 (F := Ideal) x0 x1 x2 x3 x4 x5 x6 x7 x8 x9 x10 (ix2 r k)) := by
  rw [val_main_call1_v5_apply, val_main_call1_v4_apply, val_main_call1_v3_apply, Ideal.subf_def]
  have hi : idx_main_call1_v3 (idx_main_call1_v4 (ix2 r j)) = ix1 r := funext fun a => Fin.ext (by match a with | ⟨0, _⟩ => rfl)
  rw [hi, rowMax_stage]

/-- The row-sum stage at `r`: the sum over the classes of the exponentials of the shifted logits of row `r`. -/
private theorem rowSum_stage (x0 : (⟨S1000000x100, .f32⟩ : BufTy).Contents (Elt Ideal)) (x1 : (⟨S100x256, .f32⟩ : BufTy).Contents (Elt Ideal)) (x2 : (⟨S256, .f32⟩ : BufTy).Contents (Elt Ideal))
    (x3 : (⟨S100x256, .f32⟩ : BufTy).Contents (Elt Ideal)) (x4 : (⟨S256x47, .f32⟩ : BufTy).Contents (Elt Ideal)) (x5 : (⟨S47, .f32⟩ : BufTy).Contents (Elt Ideal)) (x6 : (⟨S256x47, .f32⟩ : BufTy).Contents (Elt Ideal))
    (x7 x8 : (⟨S1024000, .i32⟩ : BufTy).Contents (Elt Ideal)) (x9 x10 : (⟨S40960, .i32⟩ : BufTy).Contents (Elt Ideal)) (r : Fin 4096) :
    val_main_call1_v7 (F := Ideal) x0 x1 x2 x3 x4 x5 x6 x7 x8 x9 x10 (ix1 r)
      = ∑ k : Fin 47, Ideal.exp (val_main_call1_v5 (F := Ideal) x0 x1 x2 x3 x4 x5 x6 x7 x8 x9 x10 (ix2 r k)) := by
  rw [val_main_call1_v7_apply, val_main_call1_cst_1_apply, Ideal.ofBits_def, Ideal.ofBits_zero_f32, zero_add]
  refine Finset.sum_congr rfl fun k _ => ?_
  rw [val_main_call1_v6_apply, Ideal.hostUnary_exp_def]
  exact congrArg (fun i => Ideal.exp (val_main_call1_v5 (F := Ideal) x0 x1 x2 x3 x4 x5 x6 x7 x8 x9 x10 i))
    (show idx_main_call1_v7 (ix1 r) k = ix2 r k from funext fun a => Fin.ext (by match a with | ⟨0, _⟩ => rfl | ⟨1, _⟩ => rfl))

/-- The logarithm-of-sum stage at `(r, j)`: the logarithm of row `r`'s sum of exponentials, whatever `j`. -/
private theorem logSum_stage (x0 : (⟨S1000000x100, .f32⟩ : BufTy).Contents (Elt Ideal)) (x1 : (⟨S100x256, .f32⟩ : BufTy).Contents (Elt Ideal)) (x2 : (⟨S256, .f32⟩ : BufTy).Contents (Elt Ideal))
    (x3 : (⟨S100x256, .f32⟩ : BufTy).Contents (Elt Ideal)) (x4 : (⟨S256x47, .f32⟩ : BufTy).Contents (Elt Ideal)) (x5 : (⟨S47, .f32⟩ : BufTy).Contents (Elt Ideal)) (x6 : (⟨S256x47, .f32⟩ : BufTy).Contents (Elt Ideal))
    (x7 x8 : (⟨S1024000, .i32⟩ : BufTy).Contents (Elt Ideal)) (x9 x10 : (⟨S40960, .i32⟩ : BufTy).Contents (Elt Ideal)) (r : Fin 4096) (j : Fin 47) :
    val_main_call1_v10 (F := Ideal) x0 x1 x2 x3 x4 x5 x6 x7 x8 x9 x10 (ix2 r j)
      = Ideal.log (∑ k : Fin 47, Ideal.exp (val_main_call1_v5 (F := Ideal) x0 x1 x2 x3 x4 x5 x6 x7 x8 x9 x10 (ix2 r k))) := by
  rw [val_main_call1_v10_apply, val_main_call1_v9_apply, val_main_call1_v8_apply, Ideal.hostUnary_log_def]
  have hi : idx_main_call1_v8 (idx_main_call1_v10 (ix2 r j)) = ix1 r := funext fun a => Fin.ext (by match a with | ⟨0, _⟩ => rfl)
  rw [hi, rowSum_stage]

/-- The result stage at `(r, q)`, from row `r` of the second layer's neighbour means and of the sliced hidden rows. -/
theorem output_apply (x0 : (⟨S1000000x100, .f32⟩ : BufTy).Contents (Elt Ideal)) (x1 : (⟨S100x256, .f32⟩ : BufTy).Contents (Elt Ideal)) (x2 : (⟨S256, .f32⟩ : BufTy).Contents (Elt Ideal))
    (x3 : (⟨S100x256, .f32⟩ : BufTy).Contents (Elt Ideal)) (x4 : (⟨S256x47, .f32⟩ : BufTy).Contents (Elt Ideal)) (x5 : (⟨S47, .f32⟩ : BufTy).Contents (Elt Ideal)) (x6 : (⟨S256x47, .f32⟩ : BufTy).Contents (Elt Ideal))
    (x7 x8 : (⟨S1024000, .i32⟩ : BufTy).Contents (Elt Ideal)) (x9 x10 : (⟨S40960, .i32⟩ : BufTy).Contents (Elt Ideal)) (r : Fin 4096) (q : Fin 47) :
    val_main_v51 (F := Ideal) x0 x1 x2 x3 x4 x5 x6 x7 x8 x9 x10 (ix2 r q)
      = classRow (fun k => val_main_v44 (F := Ideal) x0 x1 x2 x3 x7 x8 x9 x10 (ix2 r k))
          (fun k => val_main_v26 (F := Ideal) x0 x1 x2 x3 x7 x8 (ix2 r k)) x4 x6 x5 q := by
  unfold classRow logSoftmaxRow
  have hl : (fun j : Fin 47 => val_main_v50 (F := Ideal) x0 x1 x2 x3 x4 x5 x6 x7 x8 x9 x10 (ix2 r j))
      = logitRow (fun k => val_main_v44 (F := Ideal) x0 x1 x2 x3 x7 x8 x9 x10 (ix2 r k)) (fun k => val_main_v26 (F := Ideal) x0 x1 x2 x3 x7 x8 (ix2 r k)) x4 x6 x5 :=
    funext fun j => logit_stage x0 x1 x2 x3 x4 x5 x6 x7 x8 x9 x10 r j
  rw [← hl, val_main_v51_apply, Ideal.subf_def, logSum_stage, shift_stage]
  refine congrArg (fun s => (val_main_v50 (F := Ideal) x0 x1 x2 x3 x4 x5 x6 x7 x8 x9 x10 (ix2 r q) - rowMax (fun k => val_main_v50 (F := Ideal) x0 x1 x2 x3 x4 x5 x6 x7 x8 x9 x10 (ix2 r k))) - Ideal.log s) ?_
  exact Finset.sum_congr rfl fun k _ => congrArg Ideal.exp (shift_stage x0 x1 x2 x3 x4 x5 x6 x7 x8 x9 x10 r k)

end Cert.ReferenceIdeal.Sage

end
-- ==== Proof.RefValue.lean ====
/-
  The reference program's result as a function of its arguments: its rectified first layer is the first-stage function
  of the first layer's neighbour means and the first 40960 feature rows; its result is the second-stage function of the
  second layer's neighbour means of that output and of the output's first 4096 rows.
-/
import proofs.«151406_j5033701671208_1_alg».proof.Proof.RefRead
import proofs.«151406_j5033701671208_1_alg».proof.Proof.RefHidden
import proofs.«151406_j5033701671208_1_alg».proof.Proof.RefOutput
import proofs.«151406_j5033701671208_1_alg».proof.Proof.SpecArrays
import proofs.«151406_j5033701671208_1_alg».proof.Proof.Glue

noncomputable section

namespace Cert.ReferenceIdeal.Sage

open Idealize.ShloMosaic Idealize.ShloMosaic.TcCoe Idealize.ShloMosaic.ValueIdx Idealize.SL.Sem
open Cert.ReferenceIdeal Cert.ReferenceIdeal.Gen Cert.ReferenceIdeal.ReadCopy Cert.Sage

/-- The reference's first layer as a whole array. -/
theorem hidden_stage (x0 : (⟨S1000000x100, .f32⟩ : BufTy).Contents (Elt Ideal)) (x1 : (⟨S100x256, .f32⟩ : BufTy).Contents (Elt Ideal)) (x2 : (⟨S256, .f32⟩ : BufTy).Contents (Elt Ideal))
    (x3 : (⟨S100x256, .f32⟩ : BufTy).Contents (Elt Ideal)) (x7 x8 : (⟨S1024000, .i32⟩ : BufTy).Contents (Elt Ideal)) :
    val_main_v25 (F := Ideal) x0 x1 x2 x3 x7 x8
      = hiddenArr (val_main_v18 (F := Ideal) x0 x7 x8) (val_main_v0 (F := Ideal) x0) x1 x3 x2 := by
  funext i
  obtain ⟨r, q, rfl⟩ : ∃ (r : Fin 40960) (q : Fin 256), i = ix2 r q := ⟨i 0, i 1, eq_ix2 i⟩
  exact (hidden_apply x0 x1 x2 x3 x7 x8 r q).trans (hiddenArr_apply _ _ _ _ _ r q).symm

/-- The reference's result as a whole array, over the first layer's output. -/
theorem class_stage (x0 : (⟨S1000000x100, .f32⟩ : BufTy).Contents (Elt Ideal)) (x1 : (⟨S100x256, .f32⟩ : BufTy).Contents (Elt Ideal)) (x2 : (⟨S256, .f32⟩ : BufTy).Contents (Elt Ideal))
    (x3 : (⟨S100x256, .f32⟩ : BufTy).Contents (Elt Ideal)) (x4 : (⟨S256x47, .f32⟩ : BufTy).Contents (Elt Ideal)) (x5 : (⟨S47, .f32⟩ : BufTy).Contents (Elt Ideal)) (x6 : (⟨S256x47, .f32⟩ : BufTy).Contents (Elt Ideal))
    (x7 x8 : (⟨S1024000, .i32⟩ : BufTy).Contents (Elt Ideal)) (x9 x10 : (⟨S40960, .i32⟩ : BufTy).Contents (Elt Ideal)) :
    val_main_v51 (F := Ideal) x0 x1 x2 x3 x4 x5 x6 x7 x8 x9 x10
      = classArr
          (neighbourMean2 (hiddenArr (val_main_v18 (F := Ideal) x0 x7 x8) (val_main_v0 (F := Ideal) x0) x1 x3 x2) x9 x10)
          (targetRows2 (hiddenArr (val_main_v18 (F := Ideal) x0 x7 x8) (val_main_v0 (F := Ideal) x0) x1 x3 x2)) x4 x6 x5 := by
  funext i
  obtain ⟨r, q, rfl⟩ : ∃ (r : Fin 4096) (q : Fin 47), i = ix2 r q := ⟨i 0, i 1, eq_ix2 i⟩
  refine (output_apply x0 x1 x2 x3 x4 x5 x6 x7 x8 x9 x10 r q).trans ?_
  rw [val_main_v44_eq, val_main_v26_eq, hidden_stage]
  exact (classArr_apply _ _ _ _ _ r q).symm

/-- The term the reference's run ends at is that function of the launch contents of its arguments. -/
theorem result_eq (m : (ℓ : Loc nD τ sig) → Buf (Elt Ideal) ℓ) (c : Dev nD) :
    Cert.ReferenceIdeal.RunCopy.res_main_v51 m c
      = classArr
          (neighbourMean2 (hiddenArr (val_main_v18 (F := Ideal) (m ((c.tc : Thread nD τ).loc main_arg0)) (m ((c.tc : Thread nD τ).loc main_arg7)) (m ((c.tc : Thread nD τ).loc main_arg8)))
              (val_main_v0 (F := Ideal) (m ((c.tc : Thread nD τ).loc main_arg0)))
              (m ((c.tc : Thread nD τ).loc main_arg1)) (m ((c.tc : Thread nD τ).loc main_arg3)) (m ((c.tc : Thread nD τ).loc main_arg2)))
            (m ((c.tc : Thread nD τ).loc main_arg9)) (m ((c.tc : Thread nD τ).loc main_arg10)))
          (targetRows2 (hiddenArr (val_main_v18 (F := Ideal) (m ((c.tc : Thread nD τ).loc main_arg0)) (m ((c.tc : Thread nD τ).loc main_arg7)) (m ((c.tc : Thread nD τ).loc main_arg8)))
              (val_main_v0 (F := Ideal) (m ((c.tc : Thread nD τ).loc main_arg0)))
              (m ((c.tc : Thread nD τ).loc main_arg1)) (m ((c.tc : Thread nD τ).loc main_arg3)) (m ((c.tc : Thread nD τ).loc main_arg2))))
          (m ((c.tc : Thread nD τ).loc main_arg4)) (m ((c.tc : Thread nD τ).loc main_arg6)) (m ((c.tc : Thread nD τ).loc main_arg5)) :=
  (val_main_v51_eq (F := Ideal) m c).trans (class_stage _ _ _ _ _ _ _ _ _ _ _)

end Cert.ReferenceIdeal.Sage

end
-- ==== Proof.lean ====
/-
  A sampled two-layer GraphSAGE network: each layer forms, for every target node, the mean `a` of its sampled
  neighbours' feature rows (a gather by the source indices and two scatter-sums by the target indices, the sum divided by
  the larger of the neighbour count and one) and `a · Wl + x · Wr + b` with the node's own row `x`; the first layer ends
  in a rectifier, the second in a logarithmic softmax over the 47 classes.

  The kernel program forms the neighbour means with the reference's own host operations and runs each dense stage as a
  pallas_call tiled over the rows (ten blocks of 4096 rows, then two of 2048); the reference does everything with host
  operations. On the extended reals the two agree at every argument, finite or not:
  * a block's matrix products into a zero accumulator are the sums `∑ k, a k * W k q` the reference's products are, and
    a change of float format is the identity;
  * an output row depends on the same row of the two inputs only, so the blocks written back are the restrictions of
    ONE function of the whole arrays, and they cover the rows (row `r` lies in block `r / 4096`, resp. `r / 2048`);
  * the kernel adds `(a · Wl + x · Wr) + b`, the reference `(a · Wl + b) + x · Wr`: equal because addition of extended
    reals is commutative and associative;
  * the reference's softmax takes the larger of negative infinity and the row's maximum, which is the maximum.
  The neighbour means of the second layer are one and the same term of the first layer's output on both sides, so they
  are never opened. No finiteness is used: the precondition is not opened.

  The idealized kernel is the kernel's own text read on the extended reals (the pass rewrote nothing), so `preserves`
  has no conjunct.
-/
import proofs.«151406_j5033701671208_1_alg».proof.Defs
import proofs.«151406_j5033701671208_1_alg».proof.Proof.Gen.Kernel
import proofs.«151406_j5033701671208_1_alg».proof.Proof.Gen.Kernel.Skeleton
import proofs.«151406_j5033701671208_1_alg».proof.Proof.Gen.Kernel.Launch
import proofs.«151406_j5033701671208_1_alg».proof.Proof.Gen.Kernel.Points
import proofs.«151406_j5033701671208_1_alg».proof.Proof.Gen.Kernel.Frame
import proofs.«151406_j5033701671208_1_alg».proof.Proof.Gen.KernelIdeal
import proofs.«151406_j5033701671208_1_alg».proof.Proof.Gen.KernelIdeal.Skeleton
import proofs.«151406_j5033701671208_1_alg».proof.Proof.Gen.KernelIdeal.Launch
import proofs.«151406_j5033701671208_1_alg».proof.Proof.Gen.KernelIdeal.Points
import proofs.«151406_j5033701671208_1_alg».proof.Proof.Gen.KernelIdeal.Frame
import proofs.«151406_j5033701671208_1_alg».proof.Proof.Gen.ReferenceIdeal
import proofs.«151406_j5033701671208_1_alg».proof.Proof.Gen.Pre_finite_inputs
import proofs.«151406_j5033701671208_1_alg».proof.Proof.KernelRun
import proofs.«151406_j5033701671208_1_alg».proof.Proof.KernelValue
import proofs.«151406_j5033701671208_1_alg».proof.Proof.RefRun
import proofs.«151406_j5033701671208_1_alg».proof.Proof.RefValue
import Idealize.ShloMosaic.Adequacy
import Idealize.ShloMosaic.Init

noncomputable section

namespace Cert.Proof

open Idealize.ShloMosaic Idealize.SL.Sem

/-- The kernel program runs and leaves its arguments as launched. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.RunCopy.run (F := Ideal) m ρ)

/-- From memories that agree on the arguments both programs end with the result at the second-stage function of the
    second layer's neighbour means and target rows of the first-stage function of the first layer's. -/
theorem algebraic : Cert.algebraic_KernelIdeal_ReferenceIdeal := by
  intro m ρ m' ρ' _ hagree
  refine ⟨fun c => Cert.KernelIdeal.Gen.W4 m ρ c (Proc.devRef .tc Cert.KernelIdeal.main_v39),
    Cert.KernelIdeal.Sage.run_named (F := Ideal) m ρ, ?_⟩
  refine (θ_run Cert.ReferenceIdeal.defs _ _).mono (fun _ h c => ⟨(h c).1.trans ?_, (h c).2⟩)
    (Cert.ReferenceIdeal.RunCopy.run (F := Ideal) m' ρ')
  obtain ⟨h0, h1, h2, h3, h4, h5, h6, h7, h8, h9, h10⟩ := hagree c
  show Cert.ReferenceIdeal.RunCopy.res_main_v51 m' c
      = Cert.KernelIdeal.Gen.W4 m ρ c (Proc.devRef .tc Cert.KernelIdeal.main_v39)
  rw [Cert.ReferenceIdeal.Sage.result_eq, Cert.KernelIdeal.Sage.result_value, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
